-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x512 : Shape := ⟨3, ![4, 2048, 512]⟩
abbrev S512 : Shape := ⟨1, ![512]⟩
abbrev S2048 : Shape := ⟨1, ![2048]⟩
abbrev S_ : Shape := ⟨0, ![]⟩

class Facts : Prop where
  bcast_S_S4x2048x512 : S_.BroadcastsInDim S4x2048x512 (![] : Fin 0 → Fin S4x2048x512.rank)
  reducesTo_S4x2048x512_S_d0_1_2 : S4x2048x512.ReducesTo [0, 1, 2] S_
  h_S_ : 0 < S_.numel
  bcast_S_S512 : S_.BroadcastsInDim S512 (![] : Fin 0 → Fin S512.rank)
  reducesTo_S512_S_d0 : S512.ReducesTo [0] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4x2048x512 .f32) (main_arg1 : FVec F S512 .f32) (main_arg2 : FVec F S512 .f32) (main_arg3 : FVec F S2048 .f32) (main_arg4 : FVec F S2048 .f32) : IVec S_ 1 :=
  let main_v0 : FVec F S4x2048x512 .f32 := Host.absf main_arg0
  let main_cst : FVec F S_ .f32 := constant S_ .f32 0x7F800000#32
  let main_v1 : FVec F S4x2048x512 .f32 := broadcastInDim S4x2048x512 ![] bcast_S_S4x2048x512 main_cst
  let main_v2 : IVec S4x2048x512 1 := cmpf .olt main_v0 main_v1
  let main_c : IVec S_ 1 := constantI S_ 1 1#1
  let main_v3 : IVec S_ 1 := (fun x v => Host.reduce IntOp.andi x v reducesTo_S4x2048x512_S_d0_1_2 h_S_) main_v2 main_c
  let main_v4 : FVec F S512 .f32 := Host.absf main_arg1
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Kernel.lean ====
abbrev S4x2048x512 : Shape := ⟨3, ![4, 2048, 512]⟩
abbrev S512 : Shape := ⟨1, ![512]⟩
abbrev S2048 : Shape := ⟨1, ![2048]⟩
abbrev S1x512 : Shape := ⟨2, ![1, 512]⟩
abbrev S1x512x512 : Shape := ⟨3, ![1, 512, 512]⟩
abbrev S1x512x1 : Shape := ⟨3, ![1, 512, 1]⟩
abbrev S1x1x512 : Shape := ⟨3, ![1, 1, 512]⟩
abbrev S1x2048 : Shape := ⟨2, ![1, 2048]⟩
abbrev S1x256x512 : Shape := ⟨3, ![1, 256, 512]⟩
abbrev S1x2048x512 : Shape := ⟨3, ![1, 2048, 512]⟩
abbrev S256x512 : Shape := ⟨2, ![256, 512]⟩
abbrev S2048x512 : Shape := ⟨2, ![2048, 512]⟩
abbrev S256x2048 : Shape := ⟨2, ![256, 2048]⟩
abbrev S256 : Shape := ⟨1, ![256]⟩
abbrev S256x1 : Shape := ⟨2, ![256, 1]⟩

abbrev nBuf : Space → Nat
  | .hbm => 13
  | .vmem => 16
  | .smem => 0
  | _ => 0

abbrev bufTy : (tb : Table) → Fin (tcTables nBuf tb) → BufTy
  | .hbm, ⟨0, _⟩ => ⟨S4x2048x512, .f32⟩
  | .hbm, ⟨1, _⟩ => ⟨S512, .f32⟩
  | .hbm, ⟨2, _⟩ => ⟨S512, .f32⟩
  | .hbm, ⟨3, _⟩ => ⟨S2048, .f32⟩
  | .hbm, ⟨4, _⟩ => ⟨S2048, .f32⟩
  | .hbm, ⟨5, _⟩ => ⟨S1x512, .f32⟩
  | .hbm, ⟨6, _⟩ => ⟨S1x512, .f32⟩
  | .hbm, ⟨7, _⟩ => ⟨S4x2048x512, .bf16⟩
  | .hbm, ⟨8, _⟩ => ⟨S1x2048, .f32⟩
  | .hbm, ⟨9, _⟩ => ⟨S1x2048, .f32⟩
  | .hbm, ⟨10, _⟩ => ⟨S1x512, .f32⟩
  | .hbm, ⟨11, _⟩ => ⟨S1x512, .f32⟩
  | .hbm, ⟨12, _⟩ => ⟨S4x2048x512, .f32⟩
  | .local _ .vmem, ⟨0, _⟩ => ⟨S1x512x512, .f32⟩
  | .local _ .vmem, ⟨1, _⟩ => ⟨S1x512x512, .f32⟩
  | .local _ .vmem, ⟨2, _⟩ => ⟨S1x512, .f32⟩
  | .local _ .vmem, ⟨3, _⟩ => ⟨S1x512, .f32⟩
  | .local _ .vmem, ⟨4, _⟩ => ⟨S1x512x512, .bf16⟩
  | .local _ .vmem, ⟨5, _⟩ => ⟨S1x512x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x2048x512, .bf16⟩
  | .local _ .vmem, ⟨9, _⟩ => ⟨S1x2048x512, .bf16⟩
  | .local _ .vmem, ⟨10, _⟩ => ⟨S1x2048, .f32⟩
  | .local _ .vmem, ⟨11, _⟩ => ⟨S1x2048, .f32⟩
  | .local _ .vmem, ⟨12, _⟩ => ⟨S1x512, .f32⟩
  | .local _ .vmem, ⟨13, _⟩ => ⟨S1x512, .f32⟩
  | .local _ .vmem, ⟨14, _⟩ => ⟨S1x256x512, .f32⟩
  | .local _ .vmem, ⟨15, _⟩ => ⟨S1x256x512, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S512_S1x512 : S512.ShapeCasts S1x512
  inb_S1x512x512_S1x512x512_0_0_0 : ∀ a, (![0, 0, 0] : Fin 3 → Nat) a + S1x512x512.size a ≤ S1x512x512.size a
  h_S1x512x512 : 0 < S1x512x512.numel
  reduces_S1x512x512_S1x512 : S1x512x512.Reduces [2] S1x512
  shapeCasts_S1x512_S1x512x1 : S1x512.ShapeCasts S1x512x1
  broadcasts_S1x512x1_S1x512x512 : S1x512x1.Broadcasts S1x512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S1x1x512 : S1x512.ShapeCasts S1x1x512
  broadcasts_S1x1x512_S1x512x512 : S1x1x512.Broadcasts S1x512x512
  bitsLt_bf16_f32 : FTy.bits .bf16 < FTy.bits .f32
  packedbf16_S1x512x512_S1x512x512_0_0_0 : (Rect.unit (s := S1x512x512) ![0, 0, 0] S1x512x512.size inb_S1x512x512_S1x512x512_0_0_0).PackedRows (EltTy.packing .bf16)
  shapeCasts_S2048_S1x2048 : S2048.ShapeCasts S1x2048
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S256x2048_S256 : S256x2048.Reduces [1] S256
  shapeCasts_S256_S256x1 : S256.ShapeCasts S256x1
  broadcasts_S256x1_S256x2048 : S256x1.Broadcasts S256x2048
  broadcasts_S1x2048_S256x2048 : S1x2048.Broadcasts S256x2048
  reduces_S256x512_S256 : S256x512.Reduces [1] S256
  broadcasts_S256x1_S256x512 : S256x1.Broadcasts S256x512
  broadcasts_S1x512_S256x512 : S1x512.Broadcasts S256x512
  shapeCasts_S256x512_S1x256x512 : S256x512.ShapeCasts S1x256x512
  dot_S256x512_S2048x512_S256x2048_1_1_0_0_n_n_wf : DotDims.WF S256x512 S2048x512 S256x2048 [1] [1] [0] [0] [] []
  dot_S256x2048_S2048x512_S256x512_1_0_0_1_n_n_wf : DotDims.WF S256x2048 S2048x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S4x2048x512.size a
  hwx0_0 : ∀ i : grid0.Coords, EltTy.bits .f32 = 32 ∨ (Rect.block (s := S4x2048x512) S1x512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x512.size a
  hwx0_1 : ∀ i : grid0.Coords, EltTy.bits .f32 = 32 ∨ (Rect.block (s := S1x512) S1x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S4x2048x512.size a
  hwx0_3 : ∀ i : grid0.Coords, EltTy.bits .bf16 = 32 ∨ (Rect.block (s := S4x2048x512) S1x512x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x512.size a ≤ S4x2048x512.size a
  hwx1_0 : ∀ i : grid1.Coords, EltTy.bits .bf16 = 32 ∨ (Rect.block (s := S4x2048x512) S1x256x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x512.size a ≤ S4x2048x512.size a
  hwx1_1 : ∀ i : grid1.Coords, EltTy.bits .bf16 = 32 ∨ (Rect.block (s := S4x2048x512) S1x2048x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x2048.size a
  hwx1_2 : ∀ i : grid1.Coords, EltTy.bits .f32 = 32 ∨ (Rect.block (s := S1x2048) S1x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2048.size a ≤ S1x2048.size a
  hwx1_3 : ∀ i : grid1.Coords, EltTy.bits .f32 = 32 ∨ (Rect.block (s := S1x2048) S1x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x512.size a
  hwx1_5 : ∀ i : grid1.Coords, EltTy.bits .f32 = 32 ∨ (Rect.block (s := S1x512) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x512.size a ≤ S4x2048x512.size a
  hwx1_6 : ∀ i : grid1.Coords, EltTy.bits .f32 = 32 ∨ (Rect.block (s := S4x2048x512) S1x256x512.size (cc1_transform_6 i) (hinb1_6 i)).WholeWords (EltTy.packing .f32)

variable [Facts₀]

def dot_S256x512_S2048x512_S256x2048_1_1_0_0_n_n : DotDims S256x512 S2048x512 S256x2048 where
  lhsContracting := [1]
  rhsContracting := [1]
  lhsNonContracting := [0]
  rhsNonContracting := [0]
  lhsBatch := []
  rhsBatch := []
  wf := dot_S256x512_S2048x512_S256x2048_1_1_0_0_n_n_wf
def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S1x512.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v7) S1x256x512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S4x2048x512 : Shape := ⟨3, ![4, 2048, 512]⟩
abbrev S512 : Shape := ⟨1, ![512]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x512 : Shape := ⟨3, ![1, 1, 512]⟩
abbrev S4x2048x2048 : Shape := ⟨3, ![4, 2048, 2048]⟩
abbrev S1x1x2048 : Shape := ⟨3, ![1, 1, 2048]⟩

abbrev nBuf : Space → Nat
  | .hbm => 94
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S512, .f32⟩
  | .hbm, ⟨2, _⟩ => ⟨S512, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S4x2048x512, .f32⟩
  | .hbm, ⟨12, _⟩ => ⟨S4x2048x512, .f32⟩
  | .hbm, ⟨13, _⟩ => ⟨S4x2048x512, .f32⟩
  | .hbm, ⟨14, _⟩ => ⟨S_, .f32⟩
  | .hbm, ⟨15, _⟩ => ⟨S4x2048, .f32⟩
  | .hbm, ⟨16, _⟩ => ⟨S4x2048x1, .f32⟩
  | .hbm, ⟨17, _⟩ => ⟨S_, .f32⟩
  | .hbm, ⟨18, _⟩ => ⟨S4x2048x1, .f32⟩
  | .hbm, ⟨19, _⟩ => ⟨S4x2048x1, .f32⟩
  | .hbm, ⟨20, _⟩ => ⟨S4x2048x512, .f32⟩
  | .hbm, ⟨21, _⟩ => ⟨S4x2048x512, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x512, .f32⟩
  | .hbm, ⟨27, _⟩ => ⟨S4x2048x512, .f32⟩
  | .hbm, ⟨28, _⟩ => ⟨S1x1x512, .f32⟩
  | .hbm, ⟨29, _⟩ => ⟨S4x2048x512, .f32⟩
  | .hbm, ⟨30, _⟩ => ⟨S4x2048x512, .f32⟩
  | .hbm, ⟨31, _⟩ => ⟨S1x1x512, .f32⟩
  | .hbm, ⟨32, _⟩ => ⟨S4x2048x512, .f32⟩
  | .hbm, ⟨33, _⟩ => ⟨S4x2048x512, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S_, .f32⟩
  | .hbm, ⟨39, _⟩ => ⟨S4x2048x1, .f32⟩
  | .hbm, ⟨40, _⟩ => ⟨S4x2048x1, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S_, .f32⟩
  | .hbm, ⟨45, _⟩ => ⟨S4x2048, .f32⟩
  | .hbm, ⟨46, _⟩ => ⟨S4x2048x1, .f32⟩
  | .hbm, ⟨47, _⟩ => ⟨S_, .f32⟩
  | .hbm, ⟨48, _⟩ => ⟨S4x2048x1, .f32⟩
  | .hbm, ⟨49, _⟩ => ⟨S4x2048x1, .f32⟩
  | .hbm, ⟨50, _⟩ => ⟨S4x2048x2048, .f32⟩
  | .hbm, ⟨51, _⟩ => ⟨S4x2048x2048, .f32⟩
  | .hbm, ⟨52, _⟩ => ⟨S_, .f32⟩
  | .hbm, ⟨53, _⟩ => ⟨S4x2048x1, .f32⟩
  | .hbm, ⟨54, _⟩ => ⟨S4x2048x1, .f32⟩
  | .hbm, ⟨55, _⟩ => ⟨S4x2048x1, .f32⟩
  | .hbm, ⟨56, _⟩ => ⟨S4x2048x2048, .f32⟩
  | .hbm, ⟨57, _⟩ => ⟨S4x2048x2048, .f32⟩
  | .hbm, ⟨58, _⟩ => ⟨S1x1x2048, .f32⟩
  | .hbm, ⟨59, _⟩ => ⟨S4x2048x2048, .f32⟩
  | .hbm, ⟨60, _⟩ => ⟨S4x2048x2048, .f32⟩
  | .hbm, ⟨61, _⟩ => ⟨S1x1x2048, .f32⟩
  | .hbm, ⟨62, _⟩ => ⟨S4x2048x2048, .f32⟩
  | .hbm, ⟨63, _⟩ => ⟨S4x2048x2048, .f32⟩
  | .hbm, ⟨64, _⟩ => ⟨S4x2048x512, .f32⟩
  | .hbm, ⟨65, _⟩ => ⟨S_, .f32⟩
  | .hbm, ⟨66, _⟩ => ⟨S4x2048, .f32⟩
  | .hbm, ⟨67, _⟩ => ⟨S4x2048x1, .f32⟩
  | .hbm, ⟨68, _⟩ => ⟨S_, .f32⟩
  | .hbm, ⟨69, _⟩ => ⟨S4x2048x1, .f32⟩
  | .hbm, ⟨70, _⟩ => ⟨S4x2048x1, .f32⟩
  | .hbm, ⟨71, _⟩ => ⟨S4x2048x512, .f32⟩
  | .hbm, ⟨72, _⟩ => ⟨S4x2048x512, .f32⟩
  | .hbm, ⟨73, _⟩ => ⟨S4x2048x512, .f32⟩
  | .hbm, ⟨74, _⟩ => ⟨S_, .f32⟩
  | .hbm, ⟨75, _⟩ => ⟨S4x2048, .f32⟩
  | .hbm, ⟨76, _⟩ => ⟨S4x2048x1, .f32⟩
  | .hbm, ⟨77, _⟩ => ⟨S_, .f32⟩
  | .hbm, ⟨78, _⟩ => ⟨S4x2048x1, .f32⟩
  | .hbm, ⟨79, _⟩ => ⟨S4x2048x1, .f32⟩
  | .hbm, ⟨80, _⟩ => ⟨S4x2048x512, .f32⟩
  | .hbm, ⟨81, _⟩ => ⟨S4x2048x512, .f32⟩
  | .hbm, ⟨82, _⟩ => ⟨S_, .f32⟩
  | .hbm, ⟨83, _⟩ => ⟨S4x2048x1, .f32⟩
  | .hbm, ⟨84, _⟩ => ⟨S4x2048x1, .f32⟩
  | .hbm, ⟨85, _⟩ => ⟨S4x2048x1, .f32⟩
  | .hbm, ⟨86, _⟩ => ⟨S4x2048x512, .f32⟩
  | .hbm, ⟨87, _⟩ => ⟨S4x2048x512, .f32⟩
  | .hbm, ⟨88, _⟩ => ⟨S1x1x512, .f32⟩
  | .hbm, ⟨89, _⟩ => ⟨S4x2048x512, .f32⟩
  | .hbm, ⟨90, _⟩ => ⟨S4x2048x512, .f32⟩
  | .hbm, ⟨91, _⟩ => ⟨S1x1x512, .f32⟩
  | .hbm, ⟨92, _⟩ => ⟨S4x2048x512, .f32⟩
  | .hbm, ⟨93, _⟩ => ⟨S4x2048x512, .f32⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_cst_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_cst_12 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_13 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩

abbrev nD : Nat := 1
abbrev τ : Topo := Topo.v7x

variable {F : FTy → Type} [FloatOps F]

class Facts₀ : Prop where
  reducesTo_S4x2048x512_S4x2048_d2 : S4x2048x512.ReducesTo [2] S4x2048
  h_S_ : 0 < S_.numel
  bcast_S4x2048_S4x2048x1_0_1 : S4x2048.BroadcastsInDim S4x2048x1 (![0, 1] : Fin 2 → Fin S4x2048x1.rank)
  bcast_S_S4x2048x1 : S_.BroadcastsInDim S4x2048x1 (![] : Fin 0 → Fin S4x2048x1.rank)
  bcast_S4x2048x1_S4x2048x512_0_1_2 : S4x2048x1.BroadcastsInDim S4x2048x512 (![0, 1, 2] : Fin 3 → Fin S4x2048x512.rank)
  bcast_S512_S1x1x512_2 : S512.BroadcastsInDim S1x1x512 (![2] : Fin 1 → Fin S1x1x512.rank)
  bcast_S1x1x512_S4x2048x512_0_1_2 : S1x1x512.BroadcastsInDim S4x2048x512 (![0, 1, 2] : Fin 3 → Fin S4x2048x512.rank)
  reducesTo_S4x2048x2048_S4x2048_d2 : S4x2048x2048.ReducesTo [2] S4x2048
  bcast_S4x2048x1_S4x2048x2048_0_1_2 : S4x2048x1.BroadcastsInDim S4x2048x2048 (![0, 1, 2] : Fin 3 → Fin S4x2048x2048.rank)
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  dot_S4x2048x512_S4x2048x512_S4x2048x2048_2_2_1_1_0_0_wf : DotDims.WF S4x2048x512 S4x2048x512 S4x2048x2048 [2] [2] [1] [1] [0] [0]
  dot_S4x2048x2048_S4x2048x512_S4x2048x512_2_1_1_2_0_0_wf : DotDims.WF S4x2048x2048 S4x2048x512 S4x2048x512 [2] [1] [1] [2] [0] [0]

variable [Facts₀]

def dot_S4x2048x512_S4x2048x512_S4x2048x2048_2_2_1_1_0_0 : DotDims S4x2048x512 S4x2048x512 S4x2048x2048 where
  lhsContracting := [2]
  rhsContracting := [2]
  lhsNonContracting := [1]
  rhsNonContracting := [1]
  lhsBatch := [0]
  rhsBatch := [0]
  wf := dot_S4x2048x512_S4x2048x512_S4x2048x2048_2_2_1_1_0_0_wf
def dot_S4x2048x2048_S4x2048x512_S4x2048x512_2_1_1_2_0_0 : DotDims S4x2048x2048 S4x2048x512 S4x2048x512 where
  lhsContracting := [2]
  rhsContracting := [1]
  lhsNonContracting := [1]
  rhsNonContracting := [2]
  lhsBatch := [0]
  rhsBatch := [0]
  wf := dot_S4x2048x2048_S4x2048x512_S4x2048x512_2_1_1_2_0_0_wf

class Facts : Prop extends Facts₀ where

variable [Facts]
-- ==== Proof.K.Data.lean ====
/-
  The proof data of the two pipelines, at a parameter `V`: the contents of the core's buffers when a region is
  entered.  Region 0 normalises the rows of one [1, 512, 512] block per grid point; region 1 reads a [1, 256, 512]
  block of query rows and the batch's whole [1, 2048, 512] block (two windows on ONE array) and writes a
  [1, 256, 512] block.  Each body loads its input blocks whole and stores its output block whole, so after the
  body an input's staging buffer holds its block and the output's holds the body's payload of the input blocks.
-/
import proofs.«137821_j2413771620560_1_alg».proof.Proof.Gen.Kernel.Launch
import proofs.«137821_j2413771620560_1_alg».proof.Proof.Gen.Kernel.Skeleton
import proofs.«137821_j2413771620560_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole [1, 512, 512] block, as a rectangle. -/
abbrev rBlk0 : Rect S1x512x512 := Rect.unit (s := S1x512x512) ![0, 0, 0] S1x512x512.size inb_S1x512x512_S1x512x512_0_0_0
/-- The whole [1, 512] row of weights, as a rectangle. -/
abbrev rRow512 : Rect S1x512 := Rect.unit (s := S1x512) ![0, 0] S1x512.size inb_S1x512_S1x512_0_0

/-- What region 0's body leaves in the output's staging buffer: its one store, of the payload of the three loads. -/
def out0_3 (x0 : Vec F S1x512x512 .f32) (x1 x2 : Vec F S1x512 .f32) : Vec F S1x512x512 .bf16 :=
  View.canon [⟨rBlk0, k0_pay1 (View.ld x0 rBlk0) (View.ld x1 rRow512) (View.ld x2 rRow512)⟩]

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole [1, 256, 512] block, as a rectangle. -/
abbrev rBlk1 : Rect S1x256x512 := Rect.unit (s := S1x256x512) ![0, 0, 0] S1x256x512.size inb_S1x256x512_S1x256x512_0_0_0
/-- The whole [1, 2048, 512] block. -/
abbrev rAll1 : Rect S1x2048x512 := Rect.unit (s := S1x2048x512) ![0, 0, 0] S1x2048x512.size inb_S1x2048x512_S1x2048x512_0_0_0
/-- The whole [1, 2048] row of weights. -/
abbrev rRow2048 : Rect S1x2048 := Rect.unit (s := S1x2048) ![0, 0] S1x2048.size inb_S1x2048_S1x2048_0_0

/-- What region 1's body leaves in the output's staging buffer: its one store, of the payload of the six loads. -/
def out1_6 (x0 : Vec F S1x256x512 .bf16) (x1 : Vec F S1x2048x512 .bf16) (x2 x3 : Vec F S1x2048 .f32) (x4 x5 : Vec F S1x512 .f32) :
    Vec F S1x256x512 .f32 :=
  View.canon [⟨rBlk1, k1_pay1 (k1_pay2 (View.ld x0 rBlk1) (View.ld x1 rAll1) (View.ld x2 rRow2048) (View.ld x3 rRow2048))
    (k1_pay3 (View.ld x4 rRow512)) (k1_pay4 (View.ld x5 rRow512))
    (k1_pay5 (View.ld x0 rBlk1) (View.ld x1 rAll1) (View.ld x2 rRow2048) (View.ld x3 rRow2048))⟩]

/-- Region 1's proof data on core `c`: windows 0 and 1 read one array, each at half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by
  dsimp only [dat1]

end Cert.Kernel.Hand

end
-- ==== Proof.K.Region0.lean ====
/-
  Region 0's body obligation: at every grid point the body, handed each input window's staging buffer at that
  window's block and the output's at anything, leaves the inputs as they were and the output at the payload of
  the three blocks.
-/
import proofs.«137821_j2413771620560_1_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer

  An input window's buffer is refilled only when its block index moves, and the body never changes it; so at a
  point where no fetch happens the buffer still holds the block of the last fetch, which is the block of this
  point because the index has not moved.  Window 0's index moves at every point, windows 1 and 2 keep theirs from
  the first point on; the same argument serves all three. -/

/-- The block of rows is in window 0's buffer at every point. -/
theorem before0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := by
    intro s; rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

/-- The row of scales is in window 1's buffer at every point, though it is fetched at the first only. -/
theorem before0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := by
    intro s; rw [after0_1]; unfold Dat.blockOf iblk0; rw [A_eq0]; try rfl
  rw [(dat0 V c).before_in_eq_fetched 1 rfl (fun _ => rfl) (fun _ _ _ => rfl) hkeep t d]
  unfold Dat.fetched Dat.blockOf iblk0; rw [A_eq0]; try rfl

/-- The row of shifts is in window 2's buffer at every point, likewise. -/
theorem before0_2 (c : Dev nD) (t : Fin cfg0.N) (d) : (dat0 V c).before 2 t d = iblk0 V c 2 t := by
  have hkeep : ∀ s, (cfg0.win 2).cut (cfg0.grid.coords s) ((dat0 V c).after 2 s) = (dat0 V c).blockOf 2 s := by
    intro s; rw [after0_2]; unfold Dat.blockOf iblk0; rw [A_eq0]; try rfl
  rw [(dat0 V c).before_in_eq_fetched 2 rfl (fun _ => rfl) (fun _ _ _ => rfl) hkeep t d]
  unfold Dat.fetched Dat.blockOf iblk0; rw [A_eq0]; try rfl

/-! ## The one store covers the output buffer -/

/-- The body's single store is of the whole [1, 512, 512] rectangle, so every index of the buffer lies in it. -/
theorem cover0_3 (p : Vec F S1x512x512 .bf16) (y : S1x512x512.Idx) :
    ∃ pc ∈ ([⟨rBlk0, p⟩] : List (View.Piece (Elt F) S1x512x512 .bf16)), y ∈ pc.1.set :=
  View.cover_of_tiled [⟨rBlk0, p⟩] S1x512x512.size (by rfl) y

/-! ## The body's triple

  On four whole buffers, the three inputs at contents `x0`, `x1`, `x2` and the output at anything, the body
  reads the three inputs whole, reads the output buffer too (a value it never uses), and overwrites the whole
  output buffer with the payload of the three reads.  The inputs are left as they were; the output buffer, read
  back after a store that covers it, is the canonical contents of that one piece. -/

set_option maxHeartbeats 1000000 in
theorem sound_kernel0 (c : Dev nD) (E : Set ℕ) (i : grid0.Coords)
    (arg2 : Memref sig .tc .vmem S1x512x512 .f32) (harg2 : arg2.IsWhole)
    (arg3 : Memref sig .tc .vmem S1x512 .f32) (harg3 : arg3.IsWhole)
    (arg4 : Memref sig .tc .vmem S1x512 .f32) (harg4 : arg4.IsWhole)
    (arg5 : Memref sig .tc .vmem S1x512x512 .bf16) (harg5 : arg5.IsWhole)
    (x0 : Vec F S1x512x512 .f32) (x1 x2 : Vec F S1x512 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (out0_3 x0 x1 x2)) -∗ K ⟨⟩))
      ⊢ wp frame (wpE (defs₀ (F := F)) Variants.none c none) E
          (cc0__token_ln_kernel i arg2 harg2 arg3 harg3 arg4 harg4 arg5 harg5) K := by
  simp only [cc0__token_ln_kernel_eq_skeleton]; unfold cc0__token_ln_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The obligation at a point -/

/-- What the body is handed at point `t`: the invariant, what the core owes, and the four current buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back: the same invariant and debt, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the three input buffers hold their blocks, so the body's triple applies at those blocks; the
    invariant and the debt do not depend on the point and pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 0, at every point. -/
theorem body_obligation0 (c : Dev nD) : BodyObligation (dat0 (F := F) V c) (defs₀ (F := F)) Variants.none () Set.univ := by
  intro t
  rw [bigSep_W0, bigSep_W0]
  exact sound_body0 V c t

end Cert.Kernel.Hand

end
-- ==== Proof.K.Region1.lean ====
/-
  Region 1's body obligation: at every grid point the body, handed each input window's staging buffer at that
  window's block and the output's at anything, leaves the inputs as they were and the output at the payload of
  the six blocks.
-/
import proofs.«137821_j2413771620560_1_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the six input buffers

An input window's buffer is never written by the body, so what the body leaves there is the block itself. At a
point where the window is fetched the buffer holds the block because the fetch put it there; at a point where it is
not, the window's block index is the one of the point before, so the block left there is still this point's block.
Either way the buffer holds the block of the window's array at the point's index. -/

/-- The query rows' buffer holds their block: the window is fetched at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The batch's buffer holds the batch's block: fetched when the batch index moves, unmoved in between. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The first row of 2048 weights: fetched once, its index constant. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The second row of 2048 weights: fetched once, its index constant. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- The first row of 512 weights: fetched once, its index constant. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- The second row of 512 weights: fetched once, its index constant. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The body's one store -/

/-- The body stores once, through the rectangle that is the whole [1, 256, 512] block: one piece that tiles the
    buffer, so every index of the buffer lies in it. -/
theorem cover1_6 (p : Vec F S1x256x512 .f32) (y : S1x256x512.Idx) :
    ∃ pc ∈ ([⟨rBlk1, p⟩] : List (View.Piece (Elt F) S1x256x512 .f32)), y ∈ pc.1.set :=
  View.cover_of_tiled [⟨rBlk1, p⟩] S1x256x512.size (by rfl) y

/-! ## The body on seven whole buffers -/

set_option maxHeartbeats 1000000 in
/-- The body run on seven whole buffers, the six inputs' reading `x0 … x5` and the output's holding anything: the
    part loads the six inputs whole and returns its four payloads of them; the root loads the output (the value is
    not used) and stores the payload of those four over the whole output buffer. The inputs are left as read; the
    output reads what one whole-block store leaves over any earlier contents, which is the canonical form of that
    one piece because the piece covers the buffer. -/
theorem sound_kernel1 (c : Dev nD) (E : Set ℕ) (i : grid1.Coords)
    (arg2 : Memref sig .tc .vmem S1x256x512 .bf16) (harg2 : arg2.IsWhole)
    (arg3 : Memref sig .tc .vmem S1x2048x512 .bf16) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S1x512 .f32) (harg6 : arg6.IsWhole)
    (arg7 : Memref sig .tc .vmem S1x512 .f32) (harg7 : arg7.IsWhole)
    (arg8 : Memref sig .tc .vmem S1x256x512 .f32) (harg8 : arg8.IsWhole)
    (x0 : Vec F S1x256x512 .bf16) (x1 : Vec F S1x2048x512 .bf16) (x2 x3 : Vec F S1x2048 .f32) (x4 x5 : Vec F S1x512 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (out1_6 x0 x1 x2 x3 x4 x5)) -∗ K ⟨⟩))
      ⊢ wp frame (wpE (defs₀ (F := F)) Variants.none c none) E
          (cc1__attn_kernel i arg2 harg2 arg3 harg3 arg4 harg4 arg5 harg5 arg6 harg6 arg7 harg7 arg8 harg8) K := by
  sl_unfold [cc1__attn_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The obligation at a point -/

/-- What the pipeline hands the body at point `t`: its invariant, what the core owes, and each window's current
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What the body hands back: the invariant and the debt at the next point, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at point `t`. Each input's buffer holds its window's block, so the run on seven whole buffers applies
    at the six blocks; the invariant and the debt do not depend on the point and the body touches neither. What
    the run leaves is, window by window, what the proof data say the body leaves. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for region 1, at every point. -/
theorem body_obligation1 (c : Dev nD) : BodyObligation (dat1 (F := F) V c) (defs₀ (F := F)) Variants.none () Set.univ := by
  intro t
  rw [bigSep_W1, bigSep_W1]
  exact sound_body1 V c t

end Cert.Kernel.Hand

end
-- ==== Proof.K.Arrays1.lean ====
/-
  Region 1's arrays: two windows on one array.

  Windows 0 and 1 of region 1 both read `main_v2`; the proof data holds it in two halves, one per window.  The
  six buffers behind the seven windows, each whole at a valuation, are the pipeline's arrays at the contents read
  off that valuation, and back: a whole buffer splits into its two halves and the halves join again.
-/
import proofs.«137821_j2413771620560_1_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD) (V' : (b : Ref sig .tc) → Buf (Elt F) ((c : Thread nD τ).loc b))
  (Fw : (w : Fin cfg1.W) → Buf (Elt F) ((cfg1.win w).arr.view.loc (c.tc : Thread nD τ)))

/-- The buffers behind region 1's windows, listed. -/
theorem arrBufs1_eq :
    (Pipeline.arrBufs (Ix := Unit) (Name := ℕ) (U := UR sig nD τ) (Lvl := ℕ) spec1 c V' : sProp 𝕄)
      = iprop((((c : Thread nD τ).loc main_v2) ↦{fullShare} V' main_v2) ∗ (((c : Thread nD τ).loc main_v3) ↦{fullShare} V' main_v3)
        ∗ (((c : Thread nD τ).loc main_v4) ↦{fullShare} V' main_v4) ∗ (((c : Thread nD τ).loc main_v5) ↦{fullShare} V' main_v5)
        ∗ (((c : Thread nD τ).loc main_v6) ↦{fullShare} V' main_v6) ∗ (((c : Thread nD τ).loc main_v7) ↦{fullShare} V' main_v7)) := by
  unfold Pipeline.arrBufs
  exact BI.bigSep_eq_bigSepL_of_eq [main_v2, main_v3, main_v4, main_v5, main_v6, main_v7] (by decide) (by decide) _

theorem share1_0 : (dat1 V c).share 0 = fullShare.left := rfl
theorem share1_1 : (dat1 V c).share 1 = fullShare.right := rfl
theorem share1_2 : (dat1 V c).share 2 = fullShare := rfl
theorem share1_3 : (dat1 V c).share 3 = fullShare := rfl
theorem share1_4 : (dat1 V c).share 4 = fullShare := rfl
theorem share1_5 : (dat1 V c).share 5 = fullShare := rfl
theorem share1_6 : (dat1 V c).share 6 = fullShare := rfl

/-- Region 1's arrays at contents read off `V'`, window by window. -/
theorem arrays1_eq (hF : ∀ w, Fw w = V' (Pipeline.arrRef spec1 w)) :
    ((dat1 V c).arrays Fw : sProp 𝕄)
      = iprop((((c : Thread nD τ).loc main_v2) ↦{fullShare.left} V' main_v2) ∗ (((c : Thread nD τ).loc main_v2) ↦{fullShare.right} V' main_v2)
        ∗ (((c : Thread nD τ).loc main_v3) ↦{fullShare} V' main_v3)
        ∗ (((c : Thread nD τ).loc main_v4) ↦{fullShare} V' main_v4) ∗ (((c : Thread nD τ).loc main_v5) ↦{fullShare} V' main_v5)
        ∗ (((c : Thread nD τ).loc main_v6) ↦{fullShare} V' main_v6) ∗ (((c : Thread nD τ).loc main_v7) ↦{fullShare} V' main_v7)) := by
  unfold Dat.arrays
  rw [BI.bigSep_congr (Ψ := fun w : Fin cfg1.W => (((c.tc : Thread nD τ).loc (Pipeline.arrRef spec1 w)) ↦{(dat1 V c).share w} V' (Pipeline.arrRef spec1 w) : sProp 𝕄))
    (fun w _ => by rw [(arr_whole1 w).set_eq_univ, hF w])]
  rw [bigSep_W1]
  rfl

/-- ENTRY: the core's unscoped buffers at `V'` are region 1's arrays at contents read off `V'` — the shared array
    split into its two halves — beside the buffers no window of region 1 reads or writes. -/
theorem arrays1_of_unscopedBufs (hF : ∀ w, Fw w = V' (Pipeline.arrRef spec1 w)) :
    (unscopedBufs (Ix := Unit) (Name := ℕ) (U := UR sig nD τ) (Lvl := ℕ) c V' : sProp 𝕄)
      ⊢ iprop((dat1 V c).arrays Fw ∗ Pipeline.unscopedRest (Ix := Unit) (Name := ℕ) (U := UR sig nD τ) (Lvl := ℕ) spec1 c V') := by
  have hs : (unscopedBufs (Ix := Unit) (Name := ℕ) (U := UR sig nD τ) (Lvl := ℕ) c V' : sProp 𝕄)
      = iprop(Pipeline.arrBufs spec1 c V' ∗ Pipeline.unscopedRest spec1 c V') :=
    Pipeline.unscopedBufs_split₀ cfgs (1 : Fin 2) winFacts₀1.arr_unscoped c V'
  rw [hs, arrBufs1_eq, arrays1_eq V c V' Fw hF]
  iintro ⟨⟨H2, H3, H4, H5, H6, H7⟩, Hrest⟩
  ihave H := (pointsTo_share (PosShare.mem_left_op_right fullShare)).1 $$ H2
  icases H with ⟨Hl, Hr⟩
  isplitr [Hrest]
  · isplitl [Hl]; · iexact Hl
    isplitl [Hr]; · iexact Hr
    isplitl [H3]; · iexact H3
    isplitl [H4]; · iexact H4
    isplitl [H5]; · iexact H5
    isplitl [H6]; · iexact H6
    iexact H7
  · iexact Hrest

/-- EXIT: region 1's arrays at contents read off `V''` — the two halves of the shared array joined — and the other
    buffers at `V'` are the core's unscoped buffers at `V''`, if `V''` agrees with `V'` off the arrays. -/
theorem unscopedBufs_of_arrays1 (V'' : (b : Ref sig .tc) → Buf (Elt F) ((c : Thread nD τ).loc b))
    (hF : ∀ w, Fw w = V'' (Pipeline.arrRef spec1 w))
    (hrest : ∀ b, b ∉ Finset.univ.image (Pipeline.arrRef spec1) → V'' b = V' b) :
    iprop((dat1 V c).arrays Fw ∗ Pipeline.unscopedRest (Ix := Unit) (Name := ℕ) (U := UR sig nD τ) (Lvl := ℕ) spec1 c V')
      ⊢ (unscopedBufs (Ix := Unit) (Name := ℕ) (U := UR sig nD τ) (Lvl := ℕ) c V'' : sProp 𝕄) := by
  have hs : (unscopedBufs (Ix := Unit) (Name := ℕ) (U := UR sig nD τ) (Lvl := ℕ) c V'' : sProp 𝕄)
      = iprop(Pipeline.arrBufs spec1 c V'' ∗ Pipeline.unscopedRest spec1 c V'') :=
    Pipeline.unscopedBufs_split₀ cfgs (1 : Fin 2) winFacts₀1.arr_unscoped c V''
  rw [hs, arrBufs1_eq, arrays1_eq V c V'' Fw hF]
  have hr : (Pipeline.unscopedRest (Ix := Unit) (Name := ℕ) (U := UR sig nD τ) (Lvl := ℕ) spec1 c V' : sProp 𝕄)
      = Pipeline.unscopedRest spec1 c V'' := by
    unfold Pipeline.unscopedRest
    exact BI.bigSep_congr fun b hb => by rw [hrest b (Finset.mem_sdiff.mp hb).2]
  rw [hr]
  iintro ⟨⟨Hl, Hr, H3, H4, H5, H6, H7⟩, Hrest⟩
  isplitr [Hrest]
  · isplitl [Hl Hr]
    · iapply (pointsTo_share (PosShare.mem_left_op_right fullShare)).2
      isplitl [Hl]; · iexact Hl
      iexact Hr
    isplitl [H3]; · iexact H3
    isplitl [H4]; · iexact H4
    isplitl [H5]; · iexact H5
    isplitl [H6]; · iexact H6
    iexact H7
  · iexact Hrest

end Cert.Kernel.Hand

end
-- ==== Proof.K.Run.lean ====
/-
  The run of @main: two host stretches (reshapes of the weight vectors) and the two kernel regions, composed.
  Between items every unscoped buffer is held whole at a named valuation: the launch contents, then each host
  stretch's results, then — after a region — the region's output array at what its write-backs leave.  At the end
  the result array holds what region 1 left and every argument its launch contents.
-/
import proofs.«137821_j2413771620560_1_alg».proof.Proof.K.Region0
import proofs.«137821_j2413771620560_1_alg».proof.Proof.K.Region1
import proofs.«137821_j2413771620560_1_alg».proof.Proof.K.Arrays1
import proofs.«137821_j2413771620560_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its output array at what the write-backs leave, every other buffer as entered. -/
def W2 (c : Dev nD) : Valuation τ sig (Elt F) :=
  Function.update (W1 m c) main_v2 ((dat0 (V1 m) c).arrAt 3 cfg0.N)
abbrev V2 : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit: its output array at what the write-backs leave, every other buffer as entered. -/
def W4 (c : Dev nD) : Valuation τ sig (Elt F) :=
  Function.update (W3 m c) main_v7 ((dat1 (V3 m) c).arrAt 6 cfg1.N)
abbrev V4 : (c : Dev nD) → (b : Ref sig .tc) → Buf (Elt F) ((c : Thread nD τ).loc b) := fun c b => W4 m c b

theorem W2_out (c : Dev nD) : W2 m c (Proc.devRef .tc main_v2) = (dat0 (V1 m) c).arrAt 3 cfg0.N := by
  unfold W2; exact Function.update_self ..
theorem W2_of_ne (c : Dev nD) (b : Ref sig .tc) (hb : b ≠ main_v2) :
    W2 m c (Proc.devRef .tc b) = W1 m c (Proc.devRef .tc b) := by
  unfold W2; exact Function.update_of_ne (StableHlo.devRef_ne_of_ne hb) ..
theorem W4_out (c : Dev nD) : W4 m c (Proc.devRef .tc main_v7) = (dat1 (V3 m) c).arrAt 6 cfg1.N := by
  unfold W4; exact Function.update_self ..
theorem W4_of_ne (c : Dev nD) (b : Ref sig .tc) (hb : b ≠ main_v7) :
    W4 m c (Proc.devRef .tc b) = W3 m c (Proc.devRef .tc b) := by
  unfold W4; exact Function.update_of_ne (StableHlo.devRef_ne_of_ne hb) ..

/-! ## What each region leaves where -/

theorem hF0 (c : Dev nD) (w : Fin cfg0.W) : (dat0 (V1 m) c).arrAt w cfg0.N = V2 m c (Pipeline.arrRef spec0 w) :=
  match w with
  | ⟨0, _⟩ => (((dat0 (V1 m) c).arrAt_in 0 rfl _).trans (A_eq0 (V1 m) c 0)).trans (W2_of_ne m c main_arg0 (by decide)).symm
  | ⟨1, _⟩ => (((dat0 (V1 m) c).arrAt_in 1 rfl _).trans (A_eq0 (V1 m) c 1)).trans (W2_of_ne m c main_v0 (by decide)).symm
  | ⟨2, _⟩ => (((dat0 (V1 m) c).arrAt_in 2 rfl _).trans (A_eq0 (V1 m) c 2)).trans (W2_of_ne m c main_v1 (by decide)).symm
  | ⟨3, _⟩ => (W2_out m c).symm
theorem hrest0 (c : Dev nD) : ∀ b, b ∉ Finset.univ.image (Pipeline.arrRef spec0) → V2 m c b = V1 m c b :=
  fun b hb => W2_of_ne m c b fun e => hb (Finset.mem_image.mpr ⟨3, Finset.mem_univ _, e.symm⟩)

theorem hF1 (c : Dev nD) (w : Fin cfg1.W) : (dat1 (V3 m) c).arrAt w cfg1.N = V4 m c (Pipeline.arrRef spec1 w) :=
  match w with
  | ⟨0, _⟩ => (((dat1 (V3 m) c).arrAt_in 0 rfl _).trans (A_eq1 (V3 m) c 0)).trans (W4_of_ne m c main_v2 (by decide)).symm
  | ⟨1, _⟩ => (((dat1 (V3 m) c).arrAt_in 1 rfl _).trans (A_eq1 (V3 m) c 1)).trans (W4_of_ne m c main_v2 (by decide)).symm
  | ⟨2, _⟩ => (((dat1 (V3 m) c).arrAt_in 2 rfl _).trans (A_eq1 (V3 m) c 2)).trans (W4_of_ne m c main_v3 (by decide)).symm
  | ⟨3, _⟩ => (((dat1 (V3 m) c).arrAt_in 3 rfl _).trans (A_eq1 (V3 m) c 3)).trans (W4_of_ne m c main_v4 (by decide)).symm
  | ⟨4, _⟩ => (((dat1 (V3 m) c).arrAt_in 4 rfl _).trans (A_eq1 (V3 m) c 4)).trans (W4_of_ne m c main_v5 (by decide)).symm
  | ⟨5, _⟩ => (((dat1 (V3 m) c).arrAt_in 5 rfl _).trans (A_eq1 (V3 m) c 5)).trans (W4_of_ne m c main_v6 (by decide)).symm
  | ⟨6, _⟩ => (W4_out m c).symm
theorem hrest1 (c : Dev nD) : ∀ b, b ∉ Finset.univ.image (Pipeline.arrRef spec1) → V4 m c b = V3 m c b :=
  fun b hb => W4_of_ne m c b fun e => hb (Finset.mem_image.mpr ⟨6, Finset.mem_univ _, e.symm⟩)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## Region 0 as a segment -/

set_option backward.isDefEq.respectTransparency.types false in
/-- Region 0: entered from every unscoped buffer at `W1`, left at `W2`.  Its arrays are split out of the unscoped
    buffers and put back at the exit contents; the generator register goes into the invariant and out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

set_option backward.isDefEq.respectTransparency.types false in
/-- Region 1: entered from every unscoped buffer at `W3`, left at `W4`.  Two of its windows read one array, so its
    arrays are split out of the unscoped buffers, and put back, with that array in two halves. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := arrays1_of_unscopedBufs (V3 m) c (V3 m c) ((pdats m 1 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (V3 m) c (V3 m c) ((pdats m 1 c).arrAt · cfg1.N) (V4 m c) (hF1 m c) (hrest1 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## No item writes an argument -/

theorem W4_main_arg0 (c : Dev nD) : W4 m c (Proc.devRef .tc main_arg0) = m ((c : Thread nD τ).loc main_arg0) :=
  (W4_of_ne m c main_arg0 (by decide)).trans <| (StableHlo.after_of_writes_sub hostOps1 _ hostOps1_writes (by decide)).trans <|
    (W2_of_ne m c main_arg0 (by decide)).trans <| (StableHlo.after_of_writes_sub hostOps0 _ hostOps0_writes (by decide)).trans rfl
theorem W4_main_arg1 (c : Dev nD) : W4 m c (Proc.devRef .tc main_arg1) = m ((c : Thread nD τ).loc main_arg1) :=
  (W4_of_ne m c main_arg1 (by decide)).trans <| (StableHlo.after_of_writes_sub hostOps1 _ hostOps1_writes (by decide)).trans <|
    (W2_of_ne m c main_arg1 (by decide)).trans <| (StableHlo.after_of_writes_sub hostOps0 _ hostOps0_writes (by decide)).trans rfl
theorem W4_main_arg2 (c : Dev nD) : W4 m c (Proc.devRef .tc main_arg2) = m ((c : Thread nD τ).loc main_arg2) :=
  (W4_of_ne m c main_arg2 (by decide)).trans <| (StableHlo.after_of_writes_sub hostOps1 _ hostOps1_writes (by decide)).trans <|
    (W2_of_ne m c main_arg2 (by decide)).trans <| (StableHlo.after_of_writes_sub hostOps0 _ hostOps0_writes (by decide)).trans rfl
theorem W4_main_arg3 (c : Dev nD) : W4 m c (Proc.devRef .tc main_arg3) = m ((c : Thread nD τ).loc main_arg3) :=
  (W4_of_ne m c main_arg3 (by decide)).trans <| (StableHlo.after_of_writes_sub hostOps1 _ hostOps1_writes (by decide)).trans <|
    (W2_of_ne m c main_arg3 (by decide)).trans <| (StableHlo.after_of_writes_sub hostOps0 _ hostOps0_writes (by decide)).trans rfl
theorem W4_main_arg4 (c : Dev nD) : W4 m c (Proc.devRef .tc main_arg4) = m ((c : Thread nD τ).loc main_arg4) :=
  (W4_of_ne m c main_arg4 (by decide)).trans <| (StableHlo.after_of_writes_sub hostOps1 _ hostOps1_writes (by decide)).trans <|
    (W2_of_ne m c main_arg4 (by decide)).trans <| (StableHlo.after_of_writes_sub hostOps0 _ hostOps0_writes (by decide)).trans rfl

/-! ## @main as segments, and the launch -/

/-- @main's four items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segs m) := (main_chain c).trans (by chain_rfl)

set_option backward.isDefEq.respectTransparency.types false in
/-- THE RUN.  From any memory with zero counters every weakly fair execution of @main terminates, nothing faulting;
    at the end the result array holds what region 1's write-backs left and every argument its launch contents. -/
theorem run_main : θ_run defs (onTc (τ := τ) (main (F := F))) ⟨m, fun _ => 0, ρ⟩ (fun r => ∀ c : Dev nD,
      r.2.mem ((c.tc : Thread nD τ).loc main_v7) = (dat1 (V3 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v7 (by decide))).trans (W4_out m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c)⟩)

end Cert.Kernel.Hand

end
-- ==== Proof.KI.Data.lean ====
/-
  The proof data of the two pipelines, at a parameter `V`: the contents of the core's buffers when a region is
  entered.  Region 0 normalises the rows of one [1, 512, 512] block per grid point; region 1 reads a [1, 256, 512]
  block of query rows and the batch's whole [1, 2048, 512] block (two windows on ONE array) and writes a
  [1, 256, 512] block.  Each body loads its input blocks whole and stores its output block whole, so after the
  body an input's staging buffer holds its block and the output's holds the body's payload of the input blocks.
-/
import proofs.«137821_j2413771620560_1_alg».proof.Proof.Gen.KernelIdeal.Launch
import proofs.«137821_j2413771620560_1_alg».proof.Proof.Gen.KernelIdeal.Skeleton
import proofs.«137821_j2413771620560_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window `w`'s block at point `t`, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole [1, 512, 512] block, as a rectangle. -/
abbrev rBlk0 : Rect S1x512x512 := Rect.unit (s := S1x512x512) ![0, 0, 0] S1x512x512.size inb_S1x512x512_S1x512x512_0_0_0
/-- The whole [1, 512] row of weights, as a rectangle. -/
abbrev rRow512 : Rect S1x512 := Rect.unit (s := S1x512) ![0, 0] S1x512.size inb_S1x512_S1x512_0_0

/-- What region 0's body leaves in the output's staging buffer: its one store, of the payload of the three loads. -/
def out0_3 (x0 : Vec F S1x512x512 .f32) (x1 x2 : Vec F S1x512 .f32) : Vec F S1x512x512 .bf16 :=
  View.canon [⟨rBlk0, k0_pay1 (View.ld x0 rBlk0) (View.ld x1 rRow512) (View.ld x2 rRow512)⟩]

/-- Region 0's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-! ## Region 1 -/

/-- Window `w`'s block at point `t`, read off its array as region 1 finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole [1, 256, 512] block, as a rectangle. -/
abbrev rBlk1 : Rect S1x256x512 := Rect.unit (s := S1x256x512) ![0, 0, 0] S1x256x512.size inb_S1x256x512_S1x256x512_0_0_0
/-- The whole [1, 2048, 512] block. -/
abbrev rAll1 : Rect S1x2048x512 := Rect.unit (s := S1x2048x512) ![0, 0, 0] S1x2048x512.size inb_S1x2048x512_S1x2048x512_0_0_0
/-- The whole [1, 2048] row of weights. -/
abbrev rRow2048 : Rect S1x2048 := Rect.unit (s := S1x2048) ![0, 0] S1x2048.size inb_S1x2048_S1x2048_0_0

/-- What region 1's body leaves in the output's staging buffer: its one store, of the payload of the six loads. -/
def out1_6 (x0 : Vec F S1x256x512 .bf16) (x1 : Vec F S1x2048x512 .bf16) (x2 x3 : Vec F S1x2048 .f32) (x4 x5 : Vec F S1x512 .f32) :
    Vec F S1x256x512 .f32 :=
  View.canon [⟨rBlk1, k1_pay1 (k1_pay2 (View.ld x0 rBlk1) (View.ld x1 rAll1) (View.ld x2 rRow2048) (View.ld x3 rRow2048))
    (k1_pay3 (View.ld x4 rRow512)) (k1_pay4 (View.ld x5 rRow512))
    (k1_pay5 (View.ld x0 rBlk1) (View.ld x1 rAll1) (View.ld x2 rRow2048) (View.ld x3 rRow2048))⟩]

/-- Region 1's proof data on core `c`: windows 0 and 1 read one array, each at half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by
  dsimp only [dat1]

end Cert.KernelIdeal.Hand

end
-- ==== Proof.KI.Region0.lean ====
/-
  Region 0's body obligation: at every grid point the body, handed each input window's staging buffer at that
  window's block and the output's at anything, leaves the inputs as they were and the output at the payload of
  the three blocks.
-/
import proofs.«137821_j2413771620560_1_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in each input window's buffer

  An input window's buffer is refilled only when its block index moves, and the body never changes it; so at a
  point where no fetch happens the buffer still holds the block of the last fetch, which is the block of this
  point because the index has not moved.  Window 0's index moves at every point, windows 1 and 2 keep theirs from
  the first point on; the same argument serves all three. -/

/-- The block of rows is in window 0's buffer at every point. -/
theorem before0_0 (c : Dev nD) (t : Fin cfg0.N) (d) : (dat0 V c).before 0 t d = iblk0 V c 0 t := by
  have hkeep : ∀ s, (cfg0.win 0).cut (cfg0.grid.coords s) ((dat0 V c).after 0 s) = (dat0 V c).blockOf 0 s := by
    intro s; rw [after0_0]; unfold Dat.blockOf iblk0; rw [A_eq0]; try rfl
  rw [(dat0 V c).before_in_eq_fetched 0 rfl (fun _ => rfl) (fun _ _ _ => rfl) hkeep t d]
  unfold Dat.fetched Dat.blockOf iblk0; rw [A_eq0]; try rfl

/-- The row of scales is in window 1's buffer at every point, though it is fetched at the first only. -/
theorem before0_1 (c : Dev nD) (t : Fin cfg0.N) (d) : (dat0 V c).before 1 t d = iblk0 V c 1 t := by
  have hkeep : ∀ s, (cfg0.win 1).cut (cfg0.grid.coords s) ((dat0 V c).after 1 s) = (dat0 V c).blockOf 1 s := by
    intro s; rw [after0_1]; unfold Dat.blockOf iblk0; rw [A_eq0]; try rfl
  rw [(dat0 V c).before_in_eq_fetched 1 rfl (fun _ => rfl) (fun _ _ _ => rfl) hkeep t d]
  unfold Dat.fetched Dat.blockOf iblk0; rw [A_eq0]; try rfl

/-- The row of shifts is in window 2's buffer at every point, likewise. -/
theorem before0_2 (c : Dev nD) (t : Fin cfg0.N) (d) : (dat0 V c).before 2 t d = iblk0 V c 2 t := by
  have hkeep : ∀ s, (cfg0.win 2).cut (cfg0.grid.coords s) ((dat0 V c).after 2 s) = (dat0 V c).blockOf 2 s := by
    intro s; rw [after0_2]; unfold Dat.blockOf iblk0; rw [A_eq0]; try rfl
  rw [(dat0 V c).before_in_eq_fetched 2 rfl (fun _ => rfl) (fun _ _ _ => rfl) hkeep t d]
  unfold Dat.fetched Dat.blockOf iblk0; rw [A_eq0]; try rfl

/-! ## The one store covers the output buffer -/

/-- The body's single store is of the whole [1, 512, 512] rectangle, so every index of the buffer lies in it. -/
theorem cover0_3 (p : Vec F S1x512x512 .bf16) (y : S1x512x512.Idx) :
    ∃ pc ∈ ([⟨rBlk0, p⟩] : List (View.Piece (Elt F) S1x512x512 .bf16)), y ∈ pc.1.set :=
  View.cover_of_tiled [⟨rBlk0, p⟩] S1x512x512.size (by rfl) y

/-! ## The body's triple

  On four whole buffers, the three inputs at contents `x0`, `x1`, `x2` and the output at anything, the body
  reads the three inputs whole, reads the output buffer too (a value it never uses), and overwrites the whole
  output buffer with the payload of the three reads.  The inputs are left as they were; the output buffer, read
  back after a store that covers it, is the canonical contents of that one piece. -/

set_option maxHeartbeats 1000000 in
theorem sound_kernel0 (c : Dev nD) (E : Set ℕ) (i : grid0.Coords)
    (arg2 : Memref sig .tc .vmem S1x512x512 .f32) (harg2 : arg2.IsWhole)
    (arg3 : Memref sig .tc .vmem S1x512 .f32) (harg3 : arg3.IsWhole)
    (arg4 : Memref sig .tc .vmem S1x512 .f32) (harg4 : arg4.IsWhole)
    (arg5 : Memref sig .tc .vmem S1x512x512 .bf16) (harg5 : arg5.IsWhole)
    (x0 : Vec F S1x512x512 .f32) (x1 x2 : Vec F S1x512 .f32) (K : PUnit → sProp 𝕄) :
    iprop(owns (c : Thread nD τ) arg2 fullShare x0 ∗ owns (c : Thread nD τ) arg3 fullShare x1
        ∗ owns (c : Thread nD τ) arg4 fullShare x2 ∗ (∃ d, owns (c : Thread nD τ) arg5 fullShare d)
        ∗ (iprop(owns (c : Thread nD τ) arg2 fullShare x0 ∗ owns (c : Thread nD τ) arg3 fullShare x1
            ∗ owns (c : Thread nD τ) arg4 fullShare x2
            ∗ owns (c : Thread nD τ) arg5 fullShare (out0_3 x0 x1 x2)) -∗ K ⟨⟩))
      ⊢ wp frame (wpE (defs₀ (F := F)) Variants.none c none) E
          (cc0__token_ln_kernel i arg2 harg2 arg3 harg3 arg4 harg4 arg5 harg5) K := by
  simp only [cc0__token_ln_kernel_eq_skeleton]; unfold cc0__token_ln_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The obligation at a point -/

/-- What the body is handed at point `t`: the invariant, what the core owes, and the four current buffers. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- What it hands back: the same invariant and debt, each buffer at what the proof data says the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- At any point the three input buffers hold their blocks, so the body's triple applies at those blocks; the
    invariant and the debt do not depend on the point and pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 0, at every point. -/
theorem body_obligation0 (c : Dev nD) : BodyObligation (dat0 (F := F) V c) (defs₀ (F := F)) Variants.none () Set.univ := by
  intro t
  rw [bigSep_W0, bigSep_W0]
  exact sound_body0 V c t

end Cert.KernelIdeal.Hand

end
-- ==== Proof.KI.Region1.lean ====
/-
  Region 1's body obligation: at every grid point the body, handed each input window's staging buffer at that
  window's block and the output's at anything, leaves the inputs as they were and the output at the payload of
  the six blocks.
-/
import proofs.«137821_j2413771620560_1_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the body finds in the six input buffers

An input window's buffer is never written by the body, so what the body leaves there is the block itself. At a
point where the window is fetched the buffer holds the block because the fetch put it there; at a point where it is
not, the window's block index is the one of the point before, so the block left there is still this point's block.
Either way the buffer holds the block of the window's array at the point's index. -/

/-- The query rows' buffer holds their block: the window is fetched at every point. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The batch's buffer holds the batch's block: fetched when the batch index moves, unmoved in between. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The first row of 2048 weights: fetched once, its index constant. -/
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

/-- The second row of 2048 weights: fetched once, its index constant. -/
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- The first row of 512 weights: fetched once, its index constant. -/
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-- The second row of 512 weights: fetched once, its index constant. -/
theorem before1_5 (c : Dev nD) (t : Fin cfg1.N) (d) : (dat1 V c).before 5 t d = iblk1 V c 5 t :=
  ((dat1 V c).before_in_eq_fetched 5 rfl (fun _ => rfl) (fun _ _ _ => rfl)
    (fun t => by rw [after1_5]; unfold Dat.blockOf iblk1; rw [A_eq1]; try rfl) t d).trans
    (by unfold Dat.fetched Dat.blockOf iblk1; rw [A_eq1]; try rfl)

/-! ## The body's one store -/

/-- The body stores once, through the rectangle that is the whole [1, 256, 512] block: one piece that tiles the
    buffer, so every index of the buffer lies in it. -/
theorem cover1_6 (p : Vec F S1x256x512 .f32) (y : S1x256x512.Idx) :
    ∃ pc ∈ ([⟨rBlk1, p⟩] : List (View.Piece (Elt F) S1x256x512 .f32)), y ∈ pc.1.set :=
  View.cover_of_tiled [⟨rBlk1, p⟩] S1x256x512.size (by rfl) y

/-! ## The body on seven whole buffers -/

set_option maxHeartbeats 1000000 in
/-- The body run on seven whole buffers, the six inputs' reading `x0 … x5` and the output's holding anything: the
    part loads the six inputs whole and returns its four payloads of them; the root loads the output (the value is
    not used) and stores the payload of those four over the whole output buffer. The inputs are left as read; the
    output reads what one whole-block store leaves over any earlier contents, which is the canonical form of that
    one piece because the piece covers the buffer. -/
theorem sound_kernel1 (c : Dev nD) (E : Set ℕ) (i : grid1.Coords)
    (arg2 : Memref sig .tc .vmem S1x256x512 .bf16) (harg2 : arg2.IsWhole)
    (arg3 : Memref sig .tc .vmem S1x2048x512 .bf16) (harg3 : arg3.IsWhole)
    (arg4 : Memref sig .tc .vmem S1x2048 .f32) (harg4 : arg4.IsWhole)
    (arg5 : Memref sig .tc .vmem S1x2048 .f32) (harg5 : arg5.IsWhole)
    (arg6 : Memref sig .tc .vmem S1x512 .f32) (harg6 : arg6.IsWhole)
    (arg7 : Memref sig .tc .vmem S1x512 .f32) (harg7 : arg7.IsWhole)
    (arg8 : Memref sig .tc .vmem S1x256x512 .f32) (harg8 : arg8.IsWhole)
    (x0 : Vec F S1x256x512 .bf16) (x1 : Vec F S1x2048x512 .bf16) (x2 x3 : Vec F S1x2048 .f32) (x4 x5 : Vec F S1x512 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (out1_6 x0 x1 x2 x3 x4 x5)) -∗ K ⟨⟩))
      ⊢ wp frame (wpE (defs₀ (F := F)) Variants.none c none) E
          (cc1__attn_kernel i arg2 harg2 arg3 harg3 arg4 harg4 arg5 harg5 arg6 harg6 arg7 harg7 arg8 harg8) K := by
  sl_unfold [cc1__attn_kernel]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The obligation at a point -/

/-- What the pipeline hands the body at point `t`: its invariant, what the core owes, and each window's current
    buffer at what it then holds. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What the body hands back: the invariant and the debt at the next point, each buffer at what the body leaves. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 1000000 in
/-- The body at point `t`. Each input's buffer holds its window's block, so the run on seven whole buffers applies
    at the six blocks; the invariant and the debt do not depend on the point and the body touches neither. What
    the run leaves is, window by window, what the proof data say the body leaves. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation for region 1, at every point. -/
theorem body_obligation1 (c : Dev nD) : BodyObligation (dat1 (F := F) V c) (defs₀ (F := F)) Variants.none () Set.univ := by
  intro t
  rw [bigSep_W1, bigSep_W1]
  exact sound_body1 V c t

end Cert.KernelIdeal.Hand

end
-- ==== Proof.KI.Arrays1.lean ====
/-
  Region 1's arrays: two windows on one array.

  Windows 0 and 1 of region 1 both read `main_v2`; the proof data holds it in two halves, one per window.  The
  six buffers behind the seven windows, each whole at a valuation, are the pipeline's arrays at the contents read
  off that valuation, and back: a whole buffer splits into its two halves and the halves join again.
-/
import proofs.«137821_j2413771620560_1_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))
variable (c : Dev nD) (V' : (b : Ref sig .tc) → Buf (Elt F) ((c : Thread nD τ).loc b))
  (Fw : (w : Fin cfg1.W) → Buf (Elt F) ((cfg1.win w).arr.view.loc (c.tc : Thread nD τ)))

/-- The buffers behind region 1's windows, listed. -/
theorem arrBufs1_eq :
    (Pipeline.arrBufs (Ix := Unit) (Name := ℕ) (U := UR sig nD τ) (Lvl := ℕ) spec1 c V' : sProp 𝕄)
      = iprop((((c : Thread nD τ).loc main_v2) ↦{fullShare} V' main_v2) ∗ (((c : Thread nD τ).loc main_v3) ↦{fullShare} V' main_v3)
        ∗ (((c : Thread nD τ).loc main_v4) ↦{fullShare} V' main_v4) ∗ (((c : Thread nD τ).loc main_v5) ↦{fullShare} V' main_v5)
        ∗ (((c : Thread nD τ).loc main_v6) ↦{fullShare} V' main_v6) ∗ (((c : Thread nD τ).loc main_v7) ↦{fullShare} V' main_v7)) := by
  unfold Pipeline.arrBufs
  exact BI.bigSep_eq_bigSepL_of_eq [main_v2, main_v3, main_v4, main_v5, main_v6, main_v7] (by decide) (by decide) _

theorem share1_0 : (dat1 V c).share 0 = fullShare.left := rfl
theorem share1_1 : (dat1 V c).share 1 = fullShare.right := rfl
theorem share1_2 : (dat1 V c).share 2 = fullShare := rfl
theorem share1_3 : (dat1 V c).share 3 = fullShare := rfl
theorem share1_4 : (dat1 V c).share 4 = fullShare := rfl
theorem share1_5 : (dat1 V c).share 5 = fullShare := rfl
theorem share1_6 : (dat1 V c).share 6 = fullShare := rfl

/-- Region 1's arrays at contents read off `V'`, window by window. -/
theorem arrays1_eq (hF : ∀ w, Fw w = V' (Pipeline.arrRef spec1 w)) :
    ((dat1 V c).arrays Fw : sProp 𝕄)
      = iprop((((c : Thread nD τ).loc main_v2) ↦{fullShare.left} V' main_v2) ∗ (((c : Thread nD τ).loc main_v2) ↦{fullShare.right} V' main_v2)
        ∗ (((c : Thread nD τ).loc main_v3) ↦{fullShare} V' main_v3)
        ∗ (((c : Thread nD τ).loc main_v4) ↦{fullShare} V' main_v4) ∗ (((c : Thread nD τ).loc main_v5) ↦{fullShare} V' main_v5)
        ∗ (((c : Thread nD τ).loc main_v6) ↦{fullShare} V' main_v6) ∗ (((c : Thread nD τ).loc main_v7) ↦{fullShare} V' main_v7)) := by
  unfold Dat.arrays
  rw [BI.bigSep_congr (Ψ := fun w : Fin cfg1.W => (((c.tc : Thread nD τ).loc (Pipeline.arrRef spec1 w)) ↦{(dat1 V c).share w} V' (Pipeline.arrRef spec1 w) : sProp 𝕄))
    (fun w _ => by rw [(arr_whole1 w).set_eq_univ, hF w])]
  rw [bigSep_W1]
  rfl

/-- ENTRY: the core's unscoped buffers at `V'` are region 1's arrays at contents read off `V'` — the shared array
    split into its two halves — beside the buffers no window of region 1 reads or writes. -/
theorem arrays1_of_unscopedBufs (hF : ∀ w, Fw w = V' (Pipeline.arrRef spec1 w)) :
    (unscopedBufs (Ix := Unit) (Name := ℕ) (U := UR sig nD τ) (Lvl := ℕ) c V' : sProp 𝕄)
      ⊢ iprop((dat1 V c).arrays Fw ∗ Pipeline.unscopedRest (Ix := Unit) (Name := ℕ) (U := UR sig nD τ) (Lvl := ℕ) spec1 c V') := by
  have hs : (unscopedBufs (Ix := Unit) (Name := ℕ) (U := UR sig nD τ) (Lvl := ℕ) c V' : sProp 𝕄)
      = iprop(Pipeline.arrBufs spec1 c V' ∗ Pipeline.unscopedRest spec1 c V') :=
    Pipeline.unscopedBufs_split₀ cfgs (1 : Fin 2) winFacts₀1.arr_unscoped c V'
  rw [hs, arrBufs1_eq, arrays1_eq V c V' Fw hF]
  iintro ⟨⟨H2, H3, H4, H5, H6, H7⟩, Hrest⟩
  ihave H := (pointsTo_share (PosShare.mem_left_op_right fullShare)).1 $$ H2
  icases H with ⟨Hl, Hr⟩
  isplitr [Hrest]
  · isplitl [Hl]; · iexact Hl
    isplitl [Hr]; · iexact Hr
    isplitl [H3]; · iexact H3
    isplitl [H4]; · iexact H4
    isplitl [H5]; · iexact H5
    isplitl [H6]; · iexact H6
    iexact H7
  · iexact Hrest

/-- EXIT: region 1's arrays at contents read off `V''` — the two halves of the shared array joined — and the other
    buffers at `V'` are the core's unscoped buffers at `V''`, if `V''` agrees with `V'` off the arrays. -/
theorem unscopedBufs_of_arrays1 (V'' : (b : Ref sig .tc) → Buf (Elt F) ((c : Thread nD τ).loc b))
    (hF : ∀ w, Fw w = V'' (Pipeline.arrRef spec1 w))
    (hrest : ∀ b, b ∉ Finset.univ.image (Pipeline.arrRef spec1) → V'' b = V' b) :
    iprop((dat1 V c).arrays Fw ∗ Pipeline.unscopedRest (Ix := Unit) (Name := ℕ) (U := UR sig nD τ) (Lvl := ℕ) spec1 c V')
      ⊢ (unscopedBufs (Ix := Unit) (Name := ℕ) (U := UR sig nD τ) (Lvl := ℕ) c V'' : sProp 𝕄) := by
  have hs : (unscopedBufs (Ix := Unit) (Name := ℕ) (U := UR sig nD τ) (Lvl := ℕ) c V'' : sProp 𝕄)
      = iprop(Pipeline.arrBufs spec1 c V'' ∗ Pipeline.unscopedRest spec1 c V'') :=
    Pipeline.unscopedBufs_split₀ cfgs (1 : Fin 2) winFacts₀1.arr_unscoped c V''
  rw [hs, arrBufs1_eq, arrays1_eq V c V'' Fw hF]
  have hr : (Pipeline.unscopedRest (Ix := Unit) (Name := ℕ) (U := UR sig nD τ) (Lvl := ℕ) spec1 c V' : sProp 𝕄)
      = Pipeline.unscopedRest spec1 c V'' := by
    unfold Pipeline.unscopedRest
    exact BI.bigSep_congr fun b hb => by rw [hrest b (Finset.mem_sdiff.mp hb).2]
  rw [hr]
  iintro ⟨⟨Hl, Hr, H3, H4, H5, H6, H7⟩, Hrest⟩
  isplitr [Hrest]
  · isplitl [Hl Hr]
    · iapply (pointsTo_share (PosShare.mem_left_op_right fullShare)).2
      isplitl [Hl]; · iexact Hl
      iexact Hr
    isplitl [H3]; · iexact H3
    isplitl [H4]; · iexact H4
    isplitl [H5]; · iexact H5
    isplitl [H6]; · iexact H6
    iexact H7
  · iexact Hrest

end Cert.KernelIdeal.Hand

end
-- ==== Proof.KI.Run.lean ====
/-
  The run of @main: two host stretches (reshapes of the weight vectors) and the two kernel regions, composed.
  Between items every unscoped buffer is held whole at a named valuation: the launch contents, then each host
  stretch's results, then — after a region — the region's output array at what its write-backs leave.  At the end
  the result array holds what region 1 left and every argument its launch contents.
-/
import proofs.«137821_j2413771620560_1_alg».proof.Proof.KI.Region0
import proofs.«137821_j2413771620560_1_alg».proof.Proof.KI.Region1
import proofs.«137821_j2413771620560_1_alg».proof.Proof.KI.Arrays1
import proofs.«137821_j2413771620560_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => m ((c : Dev nD), b)
/-- After the first host stretch (region 0's entry). -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- At region 0's exit: its output array at what the write-backs leave, every other buffer as entered. -/
def W2 (c : Dev nD) : Valuation τ sig (Elt F) :=
  Function.update (W1 m c) main_v2 ((dat0 (V1 m) c).arrAt 3 cfg0.N)
abbrev V2 : (c : Dev nD) → (b : Ref sig .tc) → Buf (Elt F) ((c : Thread nD τ).loc b) := fun c b => W2 m c b
/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At region 1's exit: its output array at what the write-backs leave, every other buffer as entered. -/
def W4 (c : Dev nD) : Valuation τ sig (Elt F) :=
  Function.update (W3 m c) main_v7 ((dat1 (V3 m) c).arrAt 6 cfg1.N)
abbrev V4 : (c : Dev nD) → (b : Ref sig .tc) → Buf (Elt F) ((c : Thread nD τ).loc b) := fun c b => W4 m c b

theorem W2_out (c : Dev nD) : W2 m c (Proc.devRef .tc main_v2) = (dat0 (V1 m) c).arrAt 3 cfg0.N := by
  unfold W2; exact Function.update_self ..
theorem W2_of_ne (c : Dev nD) (b : Ref sig .tc) (hb : b ≠ main_v2) :
    W2 m c (Proc.devRef .tc b) = W1 m c (Proc.devRef .tc b) := by
  unfold W2; exact Function.update_of_ne (StableHlo.devRef_ne_of_ne hb) ..
theorem W4_out (c : Dev nD) : W4 m c (Proc.devRef .tc main_v7) = (dat1 (V3 m) c).arrAt 6 cfg1.N := by
  unfold W4; exact Function.update_self ..
theorem W4_of_ne (c : Dev nD) (b : Ref sig .tc) (hb : b ≠ main_v7) :
    W4 m c (Proc.devRef .tc b) = W3 m c (Proc.devRef .tc b) := by
  unfold W4; exact Function.update_of_ne (StableHlo.devRef_ne_of_ne hb) ..

/-! ## What each region leaves where -/

theorem hF0 (c : Dev nD) (w : Fin cfg0.W) : (dat0 (V1 m) c).arrAt w cfg0.N = V2 m c (Pipeline.arrRef spec0 w) :=
  match w with
  | ⟨0, _⟩ => (((dat0 (V1 m) c).arrAt_in 0 rfl _).trans (A_eq0 (V1 m) c 0)).trans (W2_of_ne m c main_arg0 (by decide)).symm
  | ⟨1, _⟩ => (((dat0 (V1 m) c).arrAt_in 1 rfl _).trans (A_eq0 (V1 m) c 1)).trans (W2_of_ne m c main_v0 (by decide)).symm
  | ⟨2, _⟩ => (((dat0 (V1 m) c).arrAt_in 2 rfl _).trans (A_eq0 (V1 m) c 2)).trans (W2_of_ne m c main_v1 (by decide)).symm
  | ⟨3, _⟩ => (W2_out m c).symm
theorem hrest0 (c : Dev nD) : ∀ b, b ∉ Finset.univ.image (Pipeline.arrRef spec0) → V2 m c b = V1 m c b :=
  fun b hb => W2_of_ne m c b fun e => hb (Finset.mem_image.mpr ⟨3, Finset.mem_univ _, e.symm⟩)

theorem hF1 (c : Dev nD) (w : Fin cfg1.W) : (dat1 (V3 m) c).arrAt w cfg1.N = V4 m c (Pipeline.arrRef spec1 w) :=
  match w with
  | ⟨0, _⟩ => (((dat1 (V3 m) c).arrAt_in 0 rfl _).trans (A_eq1 (V3 m) c 0)).trans (W4_of_ne m c main_v2 (by decide)).symm
  | ⟨1, _⟩ => (((dat1 (V3 m) c).arrAt_in 1 rfl _).trans (A_eq1 (V3 m) c 1)).trans (W4_of_ne m c main_v2 (by decide)).symm
  | ⟨2, _⟩ => (((dat1 (V3 m) c).arrAt_in 2 rfl _).trans (A_eq1 (V3 m) c 2)).trans (W4_of_ne m c main_v3 (by decide)).symm
  | ⟨3, _⟩ => (((dat1 (V3 m) c).arrAt_in 3 rfl _).trans (A_eq1 (V3 m) c 3)).trans (W4_of_ne m c main_v4 (by decide)).symm
  | ⟨4, _⟩ => (((dat1 (V3 m) c).arrAt_in 4 rfl _).trans (A_eq1 (V3 m) c 4)).trans (W4_of_ne m c main_v5 (by decide)).symm
  | ⟨5, _⟩ => (((dat1 (V3 m) c).arrAt_in 5 rfl _).trans (A_eq1 (V3 m) c 5)).trans (W4_of_ne m c main_v6 (by decide)).symm
  | ⟨6, _⟩ => (W4_out m c).symm
theorem hrest1 (c : Dev nD) : ∀ b, b ∉ Finset.univ.image (Pipeline.arrRef spec1) → V4 m c b = V3 m c b :=
  fun b hb => W4_of_ne m c b fun e => hb (Finset.mem_image.mpr ⟨6, Finset.mem_univ _, e.symm⟩)

/-! ## The proof data family and the thread state -/

/-- No pipeline has a prefetched table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-! ## Region 0 as a segment -/

set_option backward.isDefEq.respectTransparency.types false in
/-- Region 0: entered from every unscoped buffer at `W1`, left at `W2`.  Its arrays are split out of the unscoped
    buffers and put back at the exit contents; the generator register goes into the invariant and out. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

set_option backward.isDefEq.respectTransparency.types false in
/-- Region 1: entered from every unscoped buffer at `W3`, left at `W4`.  Two of its windows read one array, so its
    arrays are split out of the unscoped buffers, and put back, with that array in two halves. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := arrays1_of_unscopedBufs (V3 m) c (V3 m c) ((pdats m 1 c).arrAt · 0) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (V3 m) c (V3 m c) ((pdats m 1 c).arrAt · cfg1.N) (V4 m c) (hF1 m c) (hrest1 m c)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## No item writes an argument -/

theorem W4_main_arg0 (c : Dev nD) : W4 m c (Proc.devRef .tc main_arg0) = m ((c : Thread nD τ).loc main_arg0) :=
  (W4_of_ne m c main_arg0 (by decide)).trans <| (StableHlo.after_of_writes_sub hostOps1 _ hostOps1_writes (by decide)).trans <|
    (W2_of_ne m c main_arg0 (by decide)).trans <| (StableHlo.after_of_writes_sub hostOps0 _ hostOps0_writes (by decide)).trans rfl
theorem W4_main_arg1 (c : Dev nD) : W4 m c (Proc.devRef .tc main_arg1) = m ((c : Thread nD τ).loc main_arg1) :=
  (W4_of_ne m c main_arg1 (by decide)).trans <| (StableHlo.after_of_writes_sub hostOps1 _ hostOps1_writes (by decide)).trans <|
    (W2_of_ne m c main_arg1 (by decide)).trans <| (StableHlo.after_of_writes_sub hostOps0 _ hostOps0_writes (by decide)).trans rfl
theorem W4_main_arg2 (c : Dev nD) : W4 m c (Proc.devRef .tc main_arg2) = m ((c : Thread nD τ).loc main_arg2) :=
  (W4_of_ne m c main_arg2 (by decide)).trans <| (StableHlo.after_of_writes_sub hostOps1 _ hostOps1_writes (by decide)).trans <|
    (W2_of_ne m c main_arg2 (by decide)).trans <| (StableHlo.after_of_writes_sub hostOps0 _ hostOps0_writes (by decide)).trans rfl
theorem W4_main_arg3 (c : Dev nD) : W4 m c (Proc.devRef .tc main_arg3) = m ((c : Thread nD τ).loc main_arg3) :=
  (W4_of_ne m c main_arg3 (by decide)).trans <| (StableHlo.after_of_writes_sub hostOps1 _ hostOps1_writes (by decide)).trans <|
    (W2_of_ne m c main_arg3 (by decide)).trans <| (StableHlo.after_of_writes_sub hostOps0 _ hostOps0_writes (by decide)).trans rfl
theorem W4_main_arg4 (c : Dev nD) : W4 m c (Proc.devRef .tc main_arg4) = m ((c : Thread nD τ).loc main_arg4) :=
  (W4_of_ne m c main_arg4 (by decide)).trans <| (StableHlo.after_of_writes_sub hostOps1 _ hostOps1_writes (by decide)).trans <|
    (W2_of_ne m c main_arg4 (by decide)).trans <| (StableHlo.after_of_writes_sub hostOps0 _ hostOps0_writes (by decide)).trans rfl

/-! ## @main as segments, and the launch -/

/-- @main's four items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
/-- @main is the run of the segments. -/
theorem main_run (c : Dev nD) : main (F := F) c = Pipeline.Seg.run (segs m) := (main_chain c).trans (by chain_rfl)

set_option backward.isDefEq.respectTransparency.types false in
/-- THE RUN.  From any memory with zero counters every weakly fair execution of @main terminates, nothing faulting;
    at the end the result array holds what region 1's write-backs left and every argument its launch contents. -/
theorem run_main : θ_run defs (onTc (τ := τ) (main (F := F))) ⟨m, fun _ => 0, ρ⟩ (fun r => ∀ c : Dev nD,
      r.2.mem ((c.tc : Thread nD τ).loc main_v7) = (dat1 (V3 m) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v7 (by decide))).trans (W4_out m c),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c),
       (h c _ (mem_uc main_arg4 (by decide))).trans (W4_main_arg4 m c)⟩)

end Cert.KernelIdeal.Hand

end
-- ==== Proof.Spec.lean ====
/-
  The function both programs compute, on extended reals.

  A row of `n` numbers is normalised by its mean and variance: with `μ = (∑ x) / cnt` and
  `σ² = (∑ (x - μ)²) / cnt`, entry `j` becomes `(x j - μ) · rsqrt(σ² + ε) · w j + b j`.  Here `cnt` is the
  float word of the row's length and `ε` the float word nearest 1e-5; the same words stand in both programs,
  so neither is ever evaluated.

  Over x : [4, 2048, 512]:  y = the rows of x normalised (length 512, weights w_t, b_t);
  s[b, n, m] = ∑_d y[b, n, d] · y[b, m, d];  each row s[b, n, ·] normalised (length 2048, weights w_s, b_s) to p;
  o[b, n, d] = ∑_m p[b, n, m] · y[b, m, d];  the rows of o normalised again (length 512, w_t, b_t).
-/
import Idealize.ShloMosaic.PureOps.Ideal
import Idealize.ShloMosaic.Lib.ValueIdx

noncomputable section

namespace Cert.Spec

open Idealize.ShloMosaic Idealize.ShloMosaic.ValueIdx

/-- An array of shape [4, 2048, 512] of extended reals. -/
abbrev A3 : Type := (⟨3, ![4, 2048, 512]⟩ : Shape).Idx → EReal

/-- The float word 512.0. -/
def c512 : EReal := Ideal.ofBits .f32 0x44000000#32
/-- The float word 2048.0. -/
def c2048 : EReal := Ideal.ofBits .f32 0x45000000#32
/-- The float word nearest 1e-5. -/
def eps : EReal := Ideal.ofBits .f32 0x3727C5AC#32

/-- The mean of a row: its sum over the count word. -/
def rowMean {n : ℕ} (cnt : EReal) (x : Fin n → EReal) : EReal := Ideal.div (∑ k, x k) cnt

/-- The variance of a row about its mean. -/
def rowVar {n : ℕ} (cnt : EReal) (x : Fin n → EReal) : EReal :=
  Ideal.div (∑ k, (x k - rowMean cnt x) * (x k - rowMean cnt x)) cnt

/-- A row normalised by its mean and variance, scaled by `w` and shifted by `b`. -/
def lnRow {n : ℕ} (cnt : EReal) (x w b : Fin n → EReal) (j : Fin n) : EReal :=
  (x j - rowMean cnt x) * Ideal.rsqrt (rowVar cnt x + eps) * w j + b j

/-- Every row `x[b, n, ·]` normalised. -/
def tokenNorm (x : A3) (w b : Fin 512 → EReal) : A3 :=
  fun i => lnRow c512 (fun k => x (ix3 (i 0) (i 1) k)) w b (i 2)

/-- Row `n` of batch `b` against every row of the batch: the inner products over the last axis. -/
def scoreRow (y : A3) (b : Fin 4) (n : Fin 2048) : Fin 2048 → EReal :=
  fun m => ∑ d : Fin 512, y (ix3 b n d) * y (ix3 b m d)

/-- That row of inner products, normalised. -/
def interRow (y : A3) (ws bs : Fin 2048 → EReal) (b : Fin 4) (n : Fin 2048) : Fin 2048 → EReal :=
  lnRow c2048 (scoreRow y b n) ws bs

/-- The rows of the batch mixed by the normalised inner products. -/
def mixRow (y : A3) (ws bs : Fin 2048 → EReal) (b : Fin 4) (n : Fin 2048) : Fin 512 → EReal :=
  fun d => ∑ m : Fin 2048, interRow y ws bs b n m * y (ix3 b m d)

/-- Every mixed row normalised. -/
def attnNorm (y : A3) (ws bs : Fin 2048 → EReal) (wt bt : Fin 512 → EReal) : A3 :=
  fun i => lnRow c512 (mixRow y ws bs (i 0) (i 1)) wt bt (i 2)

/-- The whole function of the five arguments. -/
def G (x : A3) (wt bt : Fin 512 → EReal) (ws bs : Fin 2048 → EReal) : A3 :=
  attnNorm (tokenNorm x wt bt) ws bs wt bt

end Cert.Spec

end
-- ==== Proof.KI.Value0.lean ====
/-
  What region 0 leaves in its output array, as one function of the arrays it found: every row normalised.

  The body's arithmetic is read at one entry (0, r, d) of its [1, 512, 512] block: the two sums along the last axis
  are sums over the row r, the mean and the variance spread back along the row, the two rows of weights spread
  over the rows, so the entry is row r normalised at d.  Point t of the 4 × 4 grid reads and writes the block at
  block index (t / 4, t % 4, 0), that is rows (t % 4)·512 … (t % 4)·512 + 511 of batch t / 4, and the two rows of
  weights whole; so what it writes back is its block of the array of normalised rows, and the sixteen blocks
  cover the array.
-/
import proofs.«137821_j2413771620560_1_alg».proof.Proof.KI.Data
import proofs.«137821_j2413771620560_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

namespace Value0

/-! ## Layout operations of the body, read at an index -/

section Layout
variable {α : Type}

/-- A row of `n` numbers cast to a column [1, n, 1] reads, at (u, r, e), the row's entry r. -/
theorem shapeCast_1a_1a1_apply {n : ℕ} (x : (⟨2, ![1, n]⟩ : Shape).Idx → α)
    (h : (⟨2, ![1, n]⟩ : Shape).ShapeCasts ⟨3, ![1, n, 1]⟩) (u : Fin 1) (r : Fin n) (e : Fin 1) :
    shapeCast ⟨3, ![1, n, 1]⟩ x h (ix3 u r e) = x (ix2 (0 : Fin 1) r) :=
  shapeCast_apply x h _ _ (by
    have hu : u.val = 0 := by omega
    have he : e.val = 0 := by omega
    rw [Shape.rowMajor_val_three, Shape.rowMajor_val_two]
    show 0 * n + r.val = (u.val * n + r.val) * 1 + e.val
    rw [hu, he, Nat.mul_one, Nat.add_zero])

/-- A row [1, n] cast to [1, 1, n] reads, at (u, e, d), the row's entry d. -/
theorem shapeCast_1a_11a_apply {n : ℕ} (x : (⟨2, ![1, n]⟩ : Shape).Idx → α)
    (h : (⟨2, ![1, n]⟩ : Shape).ShapeCasts ⟨3, ![1, 1, n]⟩) (u : Fin 1) (e : Fin 1) (d : Fin n) :
    shapeCast ⟨3, ![1, 1, n]⟩ x h (ix3 u e d) = x (ix2 (0 : Fin 1) d) :=
  shapeCast_apply x h _ _ (by
    have hu : u.val = 0 := by omega
    have he : e.val = 0 := by omega
    rw [Shape.rowMajor_val_three, Shape.rowMajor_val_two]
    show 0 * n + d.val = (u.val * 1 + e.val) * n + d.val
    rw [hu, he])

/-- A column [1, n, 1] spread along the last axis reads, at (u, r, d), the column's entry r. -/
theorem broadcastTo_1a1_1ab_apply {n m : ℕ} (x : (⟨3, ![1, n, 1]⟩ : Shape).Idx → α)
    (h : (⟨3, ![1, n, 1]⟩ : Shape).Broadcasts ⟨3, ![1, n, m]⟩) (u : Fin 1) (r : Fin n) (d : Fin m) :
    broadcastTo ⟨3, ![1, n, m]⟩ x h (ix3 u r d) = x (ix3 (0 : Fin 1) r (0 : Fin 1)) := by
  refine broadcastTo_apply x h (ix3 u r d) (ix3 (0 : Fin 1) r (0 : Fin 1)) fun ax => ?_
  match ax with
  | ⟨0, _⟩ => rfl
  | ⟨1, _⟩ =>
    show r.val = if n = 1 then 0 else r.val
    split
    · have := r.isLt; omega
    · rfl
  | ⟨2, _⟩ => rfl

/-- A row [1, 1, m] spread over `n` rows reads, at (u, r, d), the row's entry d. -/
theorem broadcastTo_11b_1ab_apply {n m : ℕ} (x : (⟨3, ![1, 1, m]⟩ : Shape).Idx → α)
    (h : (⟨3, ![1, 1, m]⟩ : Shape).Broadcasts ⟨3, ![1, n, m]⟩) (u : Fin 1) (r : Fin n) (d : Fin m) :
    broadcastTo ⟨3, ![1, n, m]⟩ x h (ix3 u r d) = x (ix3 (0 : Fin 1) (0 : Fin 1) d) := by
  refine broadcastTo_apply x h (ix3 u r d) (ix3 (0 : Fin 1) (0 : Fin 1) d) fun ax => ?_
  match ax with
  | ⟨0, _⟩ => rfl
  | ⟨1, _⟩ => rfl
  | ⟨2, _⟩ =>
    show d.val = if m = 1 then 0 else d.val
    split
    · have := d.isLt; omega
    · rfl

end Layout

/-! ## The body's arithmetic at an index -/

/-- The sum along the last axis of a [1, 512, 512] block, at row r, is the sum of that row's entries. -/
theorem rowSum_apply (src : FVec Ideal S1x512x512 .f32) (h : S1x512x512.Reduces [2] S1x512)
    (hφ : FTy.f32 = FTy.f32 ∨ FTy.f32 = FTy.bf16) (hacc : (0x00000000#32 : BitVec 32) = 0x00000000#32) (r : Fin 512) :
    multiReduction (F := Ideal) .add [2] S1x512 src 0x00000000#32 h hφ hacc (ix2 (0 : Fin 1) r)
      = ∑ k : Fin 512, src (ix3 (0 : Fin 1) r k) := by
  refine (Ideal.multiReduction_add_single src 0x00000000#32 h hφ hacc (ix2 (0 : Fin 1) r)).trans ?_
  refine Finset.sum_congr rfl fun k _ => congrArg src ?_
  funext a
  match a with
  | ⟨0, _⟩ => rfl
  | ⟨1, _⟩ => rfl
  | ⟨2, _⟩ => rfl

/-- The reciprocal square root of a vector at an index is that of the entry. -/
theorem rsqrt_apply {s : Shape} {φ : FTy} (a : FVec Ideal s φ) (i : s.Idx) : rsqrt a i = Ideal.rsqrt (a i) := rfl

/-- The body's result at (0, r, d): row r of the block normalised by its mean and variance, scaled and shifted,
    at entry d. -/
theorem normalised_entry (v0 : FVec Ideal S1x512x512 .f32) (v15 v18 : FVec Ideal S1x512 .f32) (r d : Fin 512) :
    k0_pay1 (F := Ideal) v0 v15 v18 (ix3 (0 : Fin 1) r d)
      = Cert.Spec.lnRow Cert.Spec.c512 (fun k => v0 (ix3 (0 : Fin 1) r k)) (fun k => v15 (ix2 (0 : Fin 1) k))
          (fun k => v18 (ix2 (0 : Fin 1) k)) d := by
  unfold k0_pay1
  -- the index through the pointwise operations, the spreads and the casts
  simp only [truncf_apply, addf_apply, mulf_apply, subf_apply, divf_apply, rsqrt_apply, broadcast_apply,
    broadcastTo_1a1_1ab_apply, broadcastTo_11b_1ab_apply, shapeCast_1a_11a_apply, shapeCast_1a_1a1_apply,
    shapeCast_self, Ideal.ofBits_def]
  -- the two sums along the row
  rw [rowSum_apply v0 _ _ _ r, rowSum_apply (mulf _ _) _ _ _ r]
  simp only [mulf_apply, subf_apply, divf_apply, broadcast_apply, broadcastTo_1a1_1ab_apply,
    shapeCast_1a_1a1_apply, Ideal.ofBits_def]
  rw [rowSum_apply v0 _ _ _ r]
  rfl

/-! ## From the blocks to the array -/

theorem zeros3 : (![0, 0, 0] : Fin 3 → Nat) = fun _ => 0 :=
  funext fun a => match a with | ⟨0, _⟩ => rfl | ⟨1, _⟩ => rfl | ⟨2, _⟩ => rfl
theorem zeros2 : (![0, 0] : Fin 2 → Nat) = fun _ => 0 :=
  funext fun a => match a with | ⟨0, _⟩ => rfl | ⟨1, _⟩ => rfl

/-- The printed index maps over the 4 × 4 grid: point t has coordinates (t / 4, t % 4); the block of rows it reads
    and the block it writes both sit at block index (t / 4, t % 4, 0), the two rows of weights at (0, 0). -/
theorem blockIndex0 : ∀ t : Fin cfg0.N,
    win0_0.index t (0 : Fin 3) = t.val / 4 ∧ win0_0.index t (1 : Fin 3) = t.val % 4 ∧ win0_0.index t (2 : Fin 3) = 0
    ∧ win0_3.index t (0 : Fin 3) = t.val / 4 ∧ win0_3.index t (1 : Fin 3) = t.val % 4 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- A block whose rows are rows q·512 … q·512 + 511 of batch p of an array, with the two rows of weights, goes to
    those rows of the array normalised. -/
theorem normalised_block (X : Cert.Spec.A3) (w b : S1x512.Idx → EReal)
    (x0 : FVec Ideal S1x512x512 .f32) (x1 x2 : FVec Ideal S1x512 .f32) (p : Fin 4) (q : ℕ) (hq : q < 4)
    (h0 : ∀ r k : Fin 512, x0 (ix3 (0 : Fin 1) r k) = X (ix3 p (⟨q * 512 + r.val, by omega⟩ : Fin 2048) k))
    (h1 : ∀ k : Fin 512, x1 (ix2 (0 : Fin 1) k) = w (ix2 (0 : Fin 1) k))
    (h2 : ∀ k : Fin 512, x2 (ix2 (0 : Fin 1) k) = b (ix2 (0 : Fin 1) k)) (j : S1x512x512.Idx) :
    k0_pay1 (F := Ideal) x0 x1 x2 j
      = Cert.Spec.tokenNorm X (fun k => w (ix2 (0 : Fin 1) k)) (fun k => b (ix2 (0 : Fin 1) k))
          (ix3 p (⟨q * 512 + (j 1).val, by have : (j 1).val < 512 := (j 1).isLt; omega⟩ : Fin 2048) (j 2)) := by
  obtain ⟨u, r, d, rfl⟩ : ∃ (u : Fin 1) (r d : Fin 512), j = ix3 u r d := ⟨j 0, j 1, j 2, eq_ix3 j⟩
  obtain rfl : u = 0 := Subsingleton.elim _ _
  rw [normalised_entry, funext (h0 r), funext h1, funext h2]
  rfl

/-- What point t writes back is its block of the array of normalised rows. -/
theorem writeback0_eq (V : (c : Dev nD) → (b : Ref sig .tc) → Buf (Elt Ideal) ((c : Thread nD τ).loc b)) (c : Dev nD)
    (t : Fin cfg0.N) :
    (dat0 (F := Ideal) V c).flushed 3 t
      = ((cfg0.win 3).blk t).view.read (Elt Ideal) (Cert.Spec.tokenNorm (V c main_arg0)
          (fun k => V c main_v0 (ix2 (0 : Fin 1) k)) (fun k => V c main_v1 (ix2 (0 : Fin 1) k))) := by
  show (cfg0.win 3).cut (grid0.coords t) ((dat0 V c).after 3 t) = _
  rw [after0_3]
  unfold out0_3
  rw [View.canon_unit_zero zeros3]
  simp only [View.ld_unit_zero (S := S1x512x512) zeros3, View.ld_unit_zero (S := S1x512) zeros2]
  obtain ⟨e00, e01, e02, e30, e31, e32, e10, e11, e20, e21⟩ := blockIndex0 t
  have hN : t.val < 16 := Nat.lt_of_lt_of_eq t.isLt N_0
  funext j
  have hj0 : (j 0).val < 1 := (j 0).isLt
  have hj1 : (j 1).val < 512 := (j 1).isLt
  have hj2 : (j 2).val < 512 := (j 2).isLt
  refine (normalised_block (V c main_arg0) (V c main_v0) (V c main_v1) (iblk0 V c 0 t) (iblk0 V c 1 t) (iblk0 V c 2 t)
    ⟨t.val / 4, by omega⟩ (t.val % 4) (by omega) ?_ ?_ ?_ j).trans ?_
  · -- the block of rows, read where the point's block index puts it
    intro r k
    show V c main_arg0 (((cfg0.win 0).blk t).view.emb (ix3 (0 : Fin 1) r k)) = _
    refine congrArg (V c main_arg0) (funext fun a => Fin.ext ?_)
    match a with
    | ⟨0, _⟩ => show win0_0.index t (0 : Fin 3) * 1 + 1 * (0 : ℕ) = t.val / 4; omega
    | ⟨1, _⟩ => show win0_0.index t (1 : Fin 3) * 512 + 1 * r.val = t.val % 4 * 512 + r.val; omega
    | ⟨2, _⟩ => show win0_0.index t (2 : Fin 3) * 512 + 1 * k.val = k.val; omega
  · -- the row of scales
    intro k
    show V c main_v0 (((cfg0.win 1).blk t).view.emb (ix2 (0 : Fin 1) k)) = _
    refine congrArg (V c main_v0) (funext fun a => Fin.ext ?_)
    match a with
    | ⟨0, _⟩ => show win0_1.index t (0 : Fin 2) * 1 + 1 * (0 : ℕ) = 0; omega
    | ⟨1, _⟩ => show win0_1.index t (1 : Fin 2) * 512 + 1 * k.val = k.val; omega
  · -- the row of shifts
    intro k
    show V c main_v1 (((cfg0.win 2).blk t).view.emb (ix2 (0 : Fin 1) k)) = _
    refine congrArg (V c main_v1) (funext fun a => Fin.ext ?_)
    match a with
    | ⟨0, _⟩ => show win0_2.index t (0 : Fin 2) * 1 + 1 * (0 : ℕ) = 0; omega
    | ⟨1, _⟩ => show win0_2.index t (1 : Fin 2) * 512 + 1 * k.val = k.val; omega
  · -- the same index of the array, as the written block names it
    show _ = Cert.Spec.tokenNorm (V c main_arg0) (fun k => V c main_v0 (ix2 (0 : Fin 1) k))
      (fun k => V c main_v1 (ix2 (0 : Fin 1) k)) (((cfg0.win 3).blk t).view.emb j)
    refine congrArg (Cert.Spec.tokenNorm (V c main_arg0) (fun k => V c main_v0 (ix2 (0 : Fin 1) k))
      (fun k => V c main_v1 (ix2 (0 : Fin 1) k))) (funext fun a => Fin.ext ?_)
    match a with
    | ⟨0, _⟩ => show t.val / 4 = win0_3.index t (0 : Fin 3) * 1 + 1 * (j 0).val; omega
    | ⟨1, _⟩ => show t.val % 4 * 512 + (j 1).val = win0_3.index t (1 : Fin 3) * 512 + 1 * (j 1).val; omega
    | ⟨2, _⟩ => show (j 2).val = win0_3.index t (2 : Fin 3) * 512 + 1 * (j 2).val; omega

/-- An index of the array is in point t's block iff each coordinate is in the block's range on its axis. -/
theorem mem_rowBlock0 (t : Fin cfg0.N) (i : S4x2048x512.Idx) :
    i ∈ ((cfg0.win 3).blk t).view.set ↔ ∀ a : Fin 3, win0_3.index t a * S1x512x512.size a ≤ (i a).val
      ∧ (i a).val < win0_3.index t a * S1x512x512.size a + S1x512x512.size a := by
  show i ∈ ((View.whole main_v2).slice (win0_3.rect t)).set ↔ _
  rw [View.set_slice_whole, Rect.mem_set_unit]
  exact Iff.rfl

/-- Every index of the array is in some point's block: row n of batch b is in the block of point 4·b + n / 512. -/
theorem rows_covered0 (i : S4x2048x512.Idx) :
    ∃ t : Fin cfg0.N, (cfg0.win 3).flush t = true ∧ i ∈ ((cfg0.win 3).blk t).view.set := by
  have hi0 : (i 0).val < 4 := (i 0).isLt
  have hi1 : (i 1).val < 2048 := (i 1).isLt
  have hi2 : (i 2).val < 512 := (i 2).isLt
  have ht : 4 * (i 0).val + (i 1).val / 512 < cfg0.N := Nat.lt_of_lt_of_eq (by omega) N_0.symm
  obtain ⟨-, -, -, e30, e31, e32, -⟩ := blockIndex0 ⟨4 * (i 0).val + (i 1).val / 512, ht⟩
  refine ⟨⟨4 * (i 0).val + (i 1).val / 512, ht⟩, flush0_3 _, ?_⟩
  rw [mem_rowBlock0]
  intro a
  match a with
  | ⟨0, _⟩ =>
    show win0_3.index ⟨4 * (i 0).val + (i 1).val / 512, ht⟩ (0 : Fin 3) * 1 ≤ (i 0).val
      ∧ (i 0).val < win0_3.index ⟨4 * (i 0).val + (i 1).val / 512, ht⟩ (0 : Fin 3) * 1 + 1
    rw [e30]; show (4 * (i 0).val + (i 1).val / 512) / 4 * 1 ≤ (i 0).val ∧ (i 0).val < (4 * (i 0).val + (i 1).val / 512) / 4 * 1 + 1
    omega
  | ⟨1, _⟩ =>
    show win0_3.index ⟨4 * (i 0).val + (i 1).val / 512, ht⟩ (1 : Fin 3) * 512 ≤ (i 1).val
      ∧ (i 1).val < win0_3.index ⟨4 * (i 0).val + (i 1).val / 512, ht⟩ (1 : Fin 3) * 512 + 512
    rw [e31]; show (4 * (i 0).val + (i 1).val / 512) % 4 * 512 ≤ (i 1).val ∧ (i 1).val < (4 * (i 0).val + (i 1).val / 512) % 4 * 512 + 512
    omega
  | ⟨2, _⟩ =>
    show win0_3.index ⟨4 * (i 0).val + (i 1).val / 512, ht⟩ (2 : Fin 3) * 512 ≤ (i 2).val
      ∧ (i 2).val < win0_3.index ⟨4 * (i 0).val + (i 1).val / 512, ht⟩ (2 : Fin 3) * 512 + 512
    rw [e32]; omega

end Value0

/-- After region 0 its output array holds the rows of the first operand normalised with the weights the second and
    third operands hold. -/
theorem final0 (V : (c : Dev nD) → (b : Ref sig .tc) → Buf (Elt Ideal) ((c : Thread nD τ).loc b)) (c : Dev nD) :
    (dat0 (F := Ideal) V c).arrAt 3 cfg0.N
      = Cert.Spec.tokenNorm (V c main_arg0) (fun k => V c main_v0 (ix2 (0 : Fin 1) k)) (fun k => V c main_v1 (ix2 (0 : Fin 1) k)) := by
  -- every point writes back its block of the one array of normalised rows, and the blocks cover the array
  exact (dat0 (F := Ideal) V c).arrAt_eq_of_cover 3 _ (fun t _ => Value0.writeback0_eq V c t) Value0.rows_covered0

end Cert.KernelIdeal.Hand

end
-- ==== Proof.KI.Pay1.lean ====
/-
  Region 1's payload read at an index: the query row's inner products with every row of the batch, normalised,
  mix the batch's rows; the mixed row is normalised again.
-/
import proofs.«137821_j2413771620560_1_alg».proof.Proof.Gen.KernelIdeal.Skeleton
import proofs.«137821_j2413771620560_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! The lemmas this module's one statement is assembled from. -/
namespace Pay1

/-! ## Layout operations at coordinates -/

section Layout
variable {α : Type}

/-- A vector of 256 entries laid out as a column: entry `(r, u)` of the column is entry `r` of the vector. -/
theorem column_apply (S : (⟨1, ![256]⟩ : Shape).Idx → α) (h : (⟨1, ![256]⟩ : Shape).ShapeCasts ⟨2, ![256, 1]⟩)
    (r : Fin 256) (u : Fin 1) : shapeCast ⟨2, ![256, 1]⟩ S h (ix2 r u) = S (ix1 r) :=
  shapeCast_apply S h _ _ (by
    have hu : u.val = 0 := by omega
    rw [Shape.rowMajor_val_one, Shape.rowMajor_val_two]
    show r.val = r.val * 1 + u.val
    omega)

/-- A column repeated along the lanes: entry `(r, j)` is the column's entry of row `r`. -/
theorem spread_apply {K : ℕ} (y : (⟨2, ![256, 1]⟩ : Shape).Idx → α)
    (h : (⟨2, ![256, 1]⟩ : Shape).Broadcasts ⟨2, ![256, K]⟩) (r : Fin 256) (j : Fin K) :
    broadcastTo ⟨2, ![256, K]⟩ y h (ix2 r j) = y (ix2 r (0 : Fin 1)) := by
  refine broadcastTo_apply y h (ix2 r j) (ix2 r (0 : Fin 1)) fun ax => ?_
  match ax with
  | ⟨0, _⟩ => rfl
  | ⟨1, _⟩ => rfl

end Layout

/-! ## A sum along the lanes -/

/-- The sum over axis 1 of a `[256, K]` array, read at row `r`: the sum of that row's `K` entries. -/
theorem laneSum_apply {K : ℕ} (X : FVec Ideal ⟨2, ![256, K]⟩ .f32)
    (h : (⟨2, ![256, K]⟩ : Shape).Reduces [1] ⟨1, ![256]⟩) (hφ : FKind.Formats .f32)
    (hacc : (0x00000000#32 : BitVec FTy.f32.bits) = FKind.add.neutral .f32 hφ) (r : Fin 256) :
    multiReduction (F := Ideal) .add [1] ⟨1, ![256]⟩ X 0x00000000#32 h hφ hacc (ix1 r) = ∑ k : Fin K, X (ix2 r k) := by
  refine (Ideal.multiReduction_add_single X 0x00000000#32 h hφ hacc (ix1 r)).trans ?_
  refine Finset.sum_congr rfl fun k _ => congrArg X (funext fun a => Fin.ext ?_)
  match a with
  | ⟨0, _⟩ => rfl
  | ⟨1, _⟩ => rfl

/-! ## The two products -/

/-! The first product contracts both operands over their last axis. -/

theorem lhs_scores_0 (i : S256x2048.Idx) (q : dot_S256x512_S2048x512_S256x2048_1_1_0_0_n_n.contr.Idx) :
    (dot_S256x512_S2048x512_S256x2048_1_1_0_0_n_n.lhsIdx i q 0).val = (i 0).val := by
  unfold DotDims.lhsIdx
  rw [dif_neg (show ¬(0 : Fin S256x512.rank) ∈ dot_S256x512_S2048x512_S256x2048_1_1_0_0_n_n.lhsBatch by decide),
    dif_pos (show (0 : Fin S256x512.rank) ∈ dot_S256x512_S2048x512_S256x2048_1_1_0_0_n_n.lhsNonContracting by decide)]
  rfl

theorem lhs_scores_1 (i : S256x2048.Idx) (q : dot_S256x512_S2048x512_S256x2048_1_1_0_0_n_n.contr.Idx) :
    (dot_S256x512_S2048x512_S256x2048_1_1_0_0_n_n.lhsIdx i q 1).val = (q ⟨0, by decide⟩).val :=
  dot_S256x512_S2048x512_S256x2048_1_1_0_0_n_n.lhsIdx_val_of_single rfl i q

theorem rhs_scores_0 (i : S256x2048.Idx) (q : dot_S256x512_S2048x512_S256x2048_1_1_0_0_n_n.contr.Idx) :
    (dot_S256x512_S2048x512_S256x2048_1_1_0_0_n_n.rhsIdx i q 0).val = (i 1).val := by
  unfold DotDims.rhsIdx
  rw [dif_neg (show ¬(0 : Fin S2048x512.rank) ∈ dot_S256x512_S2048x512_S256x2048_1_1_0_0_n_n.rhsBatch by decide),
    dif_pos (show (0 : Fin S2048x512.rank) ∈ dot_S256x512_S2048x512_S256x2048_1_1_0_0_n_n.rhsNonContracting by decide)]
  rfl

theorem rhs_scores_1 (i : S256x2048.Idx) (q : dot_S256x512_S2048x512_S256x2048_1_1_0_0_n_n.contr.Idx) :
    (dot_S256x512_S2048x512_S256x2048_1_1_0_0_n_n.rhsIdx i q 1).val = (q ⟨0, by decide⟩).val :=
  dot_S256x512_S2048x512_S256x2048_1_1_0_0_n_n.rhsIdx_val_of_single rfl i q

/-- Entry `(r, m)` of the first product: the inner product of row `r` of the left operand with row `m` of the right. -/
theorem scores_apply (a : FVec Ideal S256x512 .bf16) (b : FVec Ideal S2048x512 .bf16) (r : Fin 256) (m : Fin 2048) :
    matmul (F := Ideal) dot_S256x512_S2048x512_S256x2048_1_1_0_0_n_n none a b (constant S256x2048 .f32 0x00000000#32) (ix2 r m)
      = ∑ e : Fin 512, a (ix2 r e) * b (ix2 m e) := by
  refine (Ideal.matmul_constant_zero_apply dot_S256x512_S2048x512_S256x2048_1_1_0_0_n_n none a b (ix2 r m)).trans ?_
  rw [← Equiv.sum_comp (contrEquiv1 dot_S256x512_S2048x512_S256x2048_1_1_0_0_n_n 512 rfl rfl).symm]
  refine Finset.sum_congr rfl fun k _ => ?_
  have hk := contrEquiv1_symm_val dot_S256x512_S2048x512_S256x2048_1_1_0_0_n_n 512 rfl rfl k
  have el : dot_S256x512_S2048x512_S256x2048_1_1_0_0_n_n.lhsIdx (ix2 r m)
      ((contrEquiv1 dot_S256x512_S2048x512_S256x2048_1_1_0_0_n_n 512 rfl rfl).symm k) = ix2 r k :=
    funext fun ax => Fin.ext (by
      match ax with
      | ⟨0, _⟩ => exact lhs_scores_0 _ _
      | ⟨1, _⟩ => exact (lhs_scores_1 _ _).trans hk)
  have er : dot_S256x512_S2048x512_S256x2048_1_1_0_0_n_n.rhsIdx (ix2 r m)
      ((contrEquiv1 dot_S256x512_S2048x512_S256x2048_1_1_0_0_n_n 512 rfl rfl).symm k) = ix2 m k :=
    funext fun ax => Fin.ext (by
      match ax with
      | ⟨0, _⟩ => exact rhs_scores_0 _ _
      | ⟨1, _⟩ => exact (rhs_scores_1 _ _).trans hk)
  rw [el, er]

/-! The second product contracts the left operand's last axis with the right operand's first. -/

theorem lhs_mix_0 (i : S256x512.Idx) (q : dot_S256x2048_S2048x512_S256x512_1_0_0_1_n_n.contr.Idx) :
    (dot_S256x2048_S2048x512_S256x512_1_0_0_1_n_n.lhsIdx i q 0).val = (i 0).val := by
  unfold DotDims.lhsIdx
  rw [dif_neg (show ¬(0 : Fin S256x2048.rank) ∈ dot_S256x2048_S2048x512_S256x512_1_0_0_1_n_n.lhsBatch by decide),
    dif_pos (show (0 : Fin S256x2048.rank) ∈ dot_S256x2048_S2048x512_S256x512_1_0_0_1_n_n.lhsNonContracting by decide)]
  rfl

theorem lhs_mix_1 (i : S256x512.Idx) (q : dot_S256x2048_S2048x512_S256x512_1_0_0_1_n_n.contr.Idx) :
    (dot_S256x2048_S2048x512_S256x512_1_0_0_1_n_n.lhsIdx i q 1).val = (q ⟨0, by decide⟩).val :=
  dot_S256x2048_S2048x512_S256x512_1_0_0_1_n_n.lhsIdx_val_of_single rfl i q

theorem rhs_mix_0 (i : S256x512.Idx) (q : dot_S256x2048_S2048x512_S256x512_1_0_0_1_n_n.contr.Idx) :
    (dot_S256x2048_S2048x512_S256x512_1_0_0_1_n_n.rhsIdx i q 0).val = (q ⟨0, by decide⟩).val :=
  dot_S256x2048_S2048x512_S256x512_1_0_0_1_n_n.rhsIdx_val_of_single rfl i q

theorem rhs_mix_1 (i : S256x512.Idx) (q : dot_S256x2048_S2048x512_S256x512_1_0_0_1_n_n.contr.Idx) :
    (dot_S256x2048_S2048x512_S256x512_1_0_0_1_n_n.rhsIdx i q 1).val = (i 1).val := by
  unfold DotDims.rhsIdx
  rw [dif_neg (show ¬(1 : Fin S2048x512.rank) ∈ dot_S256x2048_S2048x512_S256x512_1_0_0_1_n_n.rhsBatch by decide),
    dif_pos (show (1 : Fin S2048x512.rank) ∈ dot_S256x2048_S2048x512_S256x512_1_0_0_1_n_n.rhsNonContracting by decide)]
  rfl

/-- Entry `(r, d)` of the second product: row `r` of the left operand against column `d` of the right. -/
theorem mix_apply (l : FVec Ideal S256x2048 .bf16) (b : FVec Ideal S2048x512 .bf16) (r : Fin 256) (d : Fin 512) :
    matmul (F := Ideal) dot_S256x2048_S2048x512_S256x512_1_0_0_1_n_n none l b (constant S256x512 .f32 0x00000000#32) (ix2 r d)
      = ∑ m : Fin 2048, l (ix2 r m) * b (ix2 m d) := by
  refine (Ideal.matmul_constant_zero_apply dot_S256x2048_S2048x512_S256x512_1_0_0_1_n_n none l b (ix2 r d)).trans ?_
  rw [← Equiv.sum_comp (contrEquiv1 dot_S256x2048_S2048x512_S256x512_1_0_0_1_n_n 2048 rfl rfl).symm]
  refine Finset.sum_congr rfl fun k _ => ?_
  have hk := contrEquiv1_symm_val dot_S256x2048_S2048x512_S256x512_1_0_0_1_n_n 2048 rfl rfl k
  have el : dot_S256x2048_S2048x512_S256x512_1_0_0_1_n_n.lhsIdx (ix2 r d)
      ((contrEquiv1 dot_S256x2048_S2048x512_S256x512_1_0_0_1_n_n 2048 rfl rfl).symm k) = ix2 r k :=
    funext fun ax => Fin.ext (by
      match ax with
      | ⟨0, _⟩ => exact lhs_mix_0 _ _
      | ⟨1, _⟩ => exact (lhs_mix_1 _ _).trans hk)
  have er : dot_S256x2048_S2048x512_S256x512_1_0_0_1_n_n.rhsIdx (ix2 r d)
      ((contrEquiv1 dot_S256x2048_S2048x512_S256x512_1_0_0_1_n_n 2048 rfl rfl).symm k) = ix2 k d :=
    funext fun ax => Fin.ext (by
      match ax with
      | ⟨0, _⟩ => exact (rhs_mix_0 _ _).trans hk
      | ⟨1, _⟩ => exact rhs_mix_1 _ _)
  rw [el, er]

/-! ## A block whose rows are normalised by their mean and variance -/

/-- The reciprocal square root, lane by lane. -/
theorem rsqrt_apply {s : Shape} {φ : FTy} (a : FVec Ideal s φ) (i : s.Idx) : rsqrt a i = Ideal.rsqrt (a i) := rfl

/-- A `[256, K]` block `X` with the vector `S` of its row sums, the count word `c` and one row each of weights `w`
    and shifts `b`: every row less its mean `S / c`; the squares of that summed along the row, over `c`, are the
    variance; the centred row times the reciprocal square root of the variance plus the small word, times the weights,
    plus the shifts. -/
def normBlock {K : ℕ} (c : BitVec 32) (X : FVec Ideal ⟨2, ![256, K]⟩ .f32) (S : FVec Ideal ⟨1, ![256]⟩ .f32)
    (w b : FVec Ideal ⟨2, ![1, K]⟩ .f32)
    (hr : (⟨2, ![256, K]⟩ : Shape).Reduces [1] ⟨1, ![256]⟩)
    (hc : (⟨1, ![256]⟩ : Shape).ShapeCasts ⟨2, ![256, 1]⟩)
    (hs : (⟨2, ![256, 1]⟩ : Shape).Broadcasts ⟨2, ![256, K]⟩)
    (hw : (⟨2, ![1, K]⟩ : Shape).Broadcasts ⟨2, ![256, K]⟩) : FVec Ideal ⟨2, ![256, K]⟩ .f32 :=
  addf
    (mulf
      (mulf
        (subf X (broadcastTo ⟨2, ![256, K]⟩
          (divf (shapeCast ⟨2, ![256, 1]⟩ S hc) (broadcast ⟨2, ![256, 1]⟩ (Scalar.ofBits .f32 c))) hs))
        (broadcastTo ⟨2, ![256, K]⟩
          (rsqrt (addf
            (divf
              (shapeCast ⟨2, ![256, 1]⟩
                (multiReduction .add [1] ⟨1, ![256]⟩
                  (mulf
                    (subf X (broadcastTo ⟨2, ![256, K]⟩
                      (divf (shapeCast ⟨2, ![256, 1]⟩ S hc) (broadcast ⟨2, ![256, 1]⟩ (Scalar.ofBits .f32 c))) hs))
                    (subf X (broadcastTo ⟨2, ![256, K]⟩
                      (divf (shapeCast ⟨2, ![256, 1]⟩ S hc) (broadcast ⟨2, ![256, 1]⟩ (Scalar.ofBits .f32 c))) hs)))
                  0x00000000#32 hr (.inl rfl) rfl) hc)
              (broadcast ⟨2, ![256, 1]⟩ (Scalar.ofBits .f32 c)))
            (broadcast ⟨2, ![256, 1]⟩ (Scalar.ofBits .f32 0x3727C5AC#32)))) hs))
      (broadcastTo ⟨2, ![256, K]⟩ w hw))
    (broadcastTo ⟨2, ![256, K]⟩ b hw)

/-- Entry `(r, j)` of the normalised block is entry `j` of row `r` of `X` normalised, given that `S` holds the row sums. -/
theorem normBlock_apply {K : ℕ} (c : BitVec 32) (X : FVec Ideal ⟨2, ![256, K]⟩ .f32) (S : FVec Ideal ⟨1, ![256]⟩ .f32)
    (w b : FVec Ideal ⟨2, ![1, K]⟩ .f32)
    (hr : (⟨2, ![256, K]⟩ : Shape).Reduces [1] ⟨1, ![256]⟩)
    (hc : (⟨1, ![256]⟩ : Shape).ShapeCasts ⟨2, ![256, 1]⟩)
    (hs : (⟨2, ![256, 1]⟩ : Shape).Broadcasts ⟨2, ![256, K]⟩)
    (hw : (⟨2, ![1, K]⟩ : Shape).Broadcasts ⟨2, ![256, K]⟩)
    (hS : ∀ r : Fin 256, S (ix1 r) = ∑ k : Fin K, X (ix2 r k)) (r : Fin 256) (j : Fin K) :
    normBlock c X S w b hr hc hs hw (ix2 r j)
      = Cert.Spec.lnRow (Ideal.ofBits .f32 c) (fun k => X (ix2 r k)) (fun k => w (ix2 (0 : Fin 1) k))
          (fun k => b (ix2 (0 : Fin 1) k)) j := by
  unfold normBlock Cert.Spec.lnRow Cert.Spec.rowVar Cert.Spec.rowMean Cert.Spec.eps
  simp only [addf_apply, mulf_apply, subf_apply, divf_apply, rsqrt_apply, broadcast_apply, spread_apply, column_apply,
    broadcastTo_1b_ab_apply, hS, Ideal.ofBits_def]
  refine congrArg (fun t => (X (ix2 r j) - Ideal.div (∑ k, X (ix2 r k)) (Ideal.ofBits .f32 c))
    * Ideal.rsqrt (Ideal.div t (Ideal.ofBits .f32 c) + Ideal.ofBits .f32 0x3727C5AC#32) * w (ix2 (0 : Fin 1) j)
    + b (ix2 (0 : Fin 1) j)) ?_
  refine (laneSum_apply _ hr _ _ r).trans (Finset.sum_congr rfl fun k _ => ?_)
  simp only [mulf_apply, subf_apply, divf_apply, broadcast_apply, spread_apply, column_apply, hS]

/-! ## The payload -/

/-- The query block against the batch's rows: the first product, of the two loaded blocks with their unit axis dropped. -/
def scoresBlock (v0 : Vec Ideal S1x256x512 .bf16) (v2 : Vec Ideal S1x2048x512 .bf16) : FVec Ideal S256x2048 .f32 :=
  matmul dot_S256x512_S2048x512_S256x2048_1_1_0_0_n_n none
    (shapeCast S256x512 v0 shapeCasts_S1x256x512_S256x512 : FVec Ideal S256x512 .bf16)
    (shapeCast S2048x512 v2 shapeCasts_S1x2048x512_S2048x512 : FVec Ideal S2048x512 .bf16)
    (constant S256x2048 .f32 0x00000000#32)

/-- Entry `(r, m)` of it: the inner product of query row `r` with row `m` of the batch. -/
theorem scoresBlock_apply (v0 : Vec Ideal S1x256x512 .bf16) (v2 : Vec Ideal S1x2048x512 .bf16) (r : Fin 256) (m : Fin 2048) :
    scoresBlock v0 v2 (ix2 r m)
      = ∑ e : Fin 512, (v0 (ix3 (0 : Fin 1) r e) : EReal) * (v2 (ix3 (0 : Fin 1) m e) : EReal) := by
  unfold scoresBlock
  refine (scores_apply _ _ r m).trans (Finset.sum_congr rfl fun e _ => ?_)
  exact congrArg₂ (· * ·) (shapeCast_1ab_ab_apply v0 _ r e) (shapeCast_1ab_ab_apply v2 _ m e)

/-- The mixed block is the second product of the normalised inner products, in the narrower format, with the batch's rows. -/
theorem pay2_eq (v0 : Vec Ideal S1x256x512 .bf16) (v2 : Vec Ideal S1x2048x512 .bf16) (v5 v7 : Vec Ideal S1x2048 .f32) :
    k1_pay2 (F := Ideal) v0 v2 v5 v7
      = matmul dot_S256x2048_S2048x512_S256x512_1_0_0_1_n_n none
          (truncf .bf16
            (normBlock 0x45000000#32 (scoresBlock v0 v2)
              (multiReduction .add [1] S256 (scoresBlock v0 v2) 0x00000000#32 reduces_S256x2048_S256 (.inl rfl) rfl)
              (shapeCast S1x2048 v5 shapeCasts_S1x2048_S1x2048) (shapeCast S1x2048 v7 shapeCasts_S1x2048_S1x2048)
              reduces_S256x2048_S256 shapeCasts_S256_S256x1 broadcasts_S256x1_S256x2048 broadcasts_S1x2048_S256x2048)
            bitsLt_bf16_f32)
          (shapeCast S2048x512 v2 shapeCasts_S1x2048x512_S2048x512 : FVec Ideal S2048x512 .bf16)
          (constant S256x512 .f32 0x00000000#32) := rfl

/-- Entry `(r, d)` of the mixed block. -/
theorem pay2_apply (v0 : Vec Ideal S1x256x512 .bf16) (v2 : Vec Ideal S1x2048x512 .bf16) (v5 v7 : Vec Ideal S1x2048 .f32)
    (r : Fin 256) (d : Fin 512) :
    k1_pay2 (F := Ideal) v0 v2 v5 v7 (ix2 r d)
      = ∑ m : Fin 2048,
          Cert.Spec.lnRow Cert.Spec.c2048
            (fun m' : Fin 2048 => ∑ e : Fin 512, (v0 (ix3 (0 : Fin 1) r e) : EReal) * (v2 (ix3 (0 : Fin 1) m' e) : EReal))
            (fun k => v5 (ix2 (0 : Fin 1) k)) (fun k => v7 (ix2 (0 : Fin 1) k)) m
          * (v2 (ix3 (0 : Fin 1) m d) : EReal) := by
  rw [pay2_eq]
  refine (mix_apply _ _ r d).trans (Finset.sum_congr rfl fun m _ => ?_)
  refine congrArg₂ (· * ·) ?_ (shapeCast_1ab_ab_apply v2 _ m d)
  refine (truncf_apply (φ := .f32) (ψ := .bf16) _ bitsLt_bf16_f32 (ix2 r m)).trans ?_
  refine (normBlock_apply 0x45000000#32 (scoresBlock v0 v2) _ _ _ _ _ _ _
    (fun r' => laneSum_apply (scoresBlock v0 v2) reduces_S256x2048_S256 (.inl rfl) rfl r') r m).trans ?_
  rw [shapeCast_self v5, shapeCast_self v7]
  exact congrArg (fun x => Cert.Spec.lnRow Cert.Spec.c2048 x (fun k => v5 (ix2 (0 : Fin 1) k)) (fun k => v7 (ix2 (0 : Fin 1) k)) m)
    (funext fun k => scoresBlock_apply v0 v2 r k)

end Pay1

open Pay1

/-- Entry (r, d) of the block region 1 stores, from the six blocks it loads. -/
theorem pay1_apply (v0 : Vec Ideal S1x256x512 .bf16) (v2 : Vec Ideal S1x2048x512 .bf16) (v5 v7 : Vec Ideal S1x2048 .f32)
    (v31 v33 : Vec Ideal S1x512 .f32) (r : Fin 256) (d : Fin 512) :
    k1_pay1 (F := Ideal) (k1_pay2 v0 v2 v5 v7) (k1_pay3 v31) (k1_pay4 v33) (k1_pay5 v0 v2 v5 v7) (ix3 (0 : Fin 1) r d)
      = Cert.Spec.lnRow Cert.Spec.c512
          (fun d' : Fin 512 => ∑ m : Fin 2048,
            Cert.Spec.lnRow Cert.Spec.c2048
              (fun m' : Fin 2048 => ∑ e : Fin 512, (v0 (ix3 (0 : Fin 1) r e) : EReal) * (v2 (ix3 (0 : Fin 1) m' e) : EReal))
              (fun k => v5 (ix2 (0 : Fin 1) k)) (fun k => v7 (ix2 (0 : Fin 1) k)) m
            * (v2 (ix3 (0 : Fin 1) m d') : EReal))
          (fun k => v31 (ix2 (0 : Fin 1) k)) (fun k => v33 (ix2 (0 : Fin 1) k)) d := by
  have e1 : k1_pay1 (F := Ideal) (k1_pay2 v0 v2 v5 v7) (k1_pay3 v31) (k1_pay4 v33) (k1_pay5 v0 v2 v5 v7)
      = shapeCast S1x256x512
          (normBlock 0x44000000#32 (k1_pay2 v0 v2 v5 v7) (k1_pay5 v0 v2 v5 v7) (k1_pay3 v31) (k1_pay4 v33)
            reduces_S256x512_S256 shapeCasts_S256_S256x1 broadcasts_S256x1_S256x512 broadcasts_S1x512_S256x512)
          shapeCasts_S256x512_S1x256x512 := rfl
  rw [e1]
  refine (shapeCast_ab_1ab_apply _ _ (0 : Fin 1) r d).trans ?_
  refine (normBlock_apply 0x44000000#32 (k1_pay2 v0 v2 v5 v7) (k1_pay5 v0 v2 v5 v7) _ _ _ _ _ _
    (fun r' => laneSum_apply (k1_pay2 v0 v2 v5 v7) reduces_S256x512_S256 (.inl rfl) rfl r') r d).trans ?_
  have h3 : k1_pay3 (F := Ideal) v31 = v31 := shapeCast_self v31 _
  have h4 : k1_pay4 (F := Ideal) v33 = v33 := shapeCast_self v33 _
  rw [h3, h4]
  exact congrArg (fun x => Cert.Spec.lnRow Cert.Spec.c512 x (fun k => v31 (ix2 (0 : Fin 1) k)) (fun k => v33 (ix2 (0 : Fin 1) k)) d)
    (funext fun k => pay2_apply v0 v2 v5 v7 r k)

end Cert.KernelIdeal.Hand

end
-- ==== Proof.KI.Value1.lean ====
/-
  What region 1 leaves in its output array, as one function of the arrays it found.
-/
import proofs.«137821_j2413771620560_1_alg».proof.Proof.KI.Data
import proofs.«137821_j2413771620560_1_alg».proof.Proof.KI.Pay1
import proofs.«137821_j2413771620560_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

namespace Value1

/-- Zero offsets on three axes, however spelt. -/
theorem zero3 : (![0, 0, 0] : Fin 3 → Nat) = fun _ => 0 := funext fun a => by fin_cases a <;> rfl
/-- Zero offsets on two axes. -/
theorem zero2 : (![0, 0] : Fin 2 → Nat) = fun _ => 0 := funext fun a => by fin_cases a <;> rfl

/-- The block indices of region 1's seven windows at grid point `t`, whose coordinates are (t / 8, t % 8): the query
    and output blocks sit at (t / 8, t % 8, 0), the batch's block at (t / 8, 0, 0), the four weight rows at (0, 0). -/
theorem blockIdx1 : ∀ t : Fin cfg1.N,
    win1_0.index t (0 : Fin 3) = t.val / 8 ∧ win1_0.index t (1 : Fin 3) = t.val % 8 ∧ win1_0.index t (2 : Fin 3) = 0
    ∧ win1_1.index t (0 : Fin 3) = t.val / 8 ∧ win1_1.index t (1 : Fin 3) = 0 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 3) = t.val / 8 ∧ win1_6.index t (1 : Fin 3) = t.val % 8 ∧ win1_6.index t (2 : Fin 3) = 0 :=
  (by decide +kernel : ∀ t : Fin grid1.N, _)

section Blocks

variable (V : (c : Dev nD) → (b : Ref sig .tc) → Buf (Elt Ideal) ((c : Thread nD τ).loc b))

/-- The query block at point `t` is rows 256·(t % 8) … of batch t / 8. -/
theorem queryBlk_apply (c : Dev nD) (t : Fin cfg1.N) (r : Fin 256) (e : Fin 512) (b : Fin 4) (n : Fin 2048)
    (hb : b.val = t.val / 8) (hn : n.val = 256 * (t.val % 8) + r.val) :
    (iblk1 V c 0 t : Vec Ideal S1x256x512 .bf16) (ix3 (0 : Fin 1) r e)
      = (V c main_v2 : S4x2048x512.Idx → Elt Ideal .bf16) (ix3 b n e) := by
  obtain ⟨e0, e1, e2, -⟩ := blockIdx1 t
  unfold iblk1
  rw [View.read_apply]
  show V c main_v2 _ = V c main_v2 _
  congr 1
  funext a
  apply Fin.ext
  match a with
  | ⟨0, _⟩ => show win1_0.index t (0 : Fin 3) * 1 + 1 * (0 : Fin 1).val = b.val; rw [e0, hb]; omega
  | ⟨1, _⟩ => show win1_0.index t (1 : Fin 3) * 256 + 1 * r.val = n.val; rw [e1, hn]; omega
  | ⟨2, _⟩ => show win1_0.index t (2 : Fin 3) * 512 + 1 * e.val = e.val; rw [e2]; omega

/-- The batch's block at point `t` is all rows of batch t / 8. -/
theorem batchBlk_apply (c : Dev nD) (t : Fin cfg1.N) (m : Fin 2048) (e : Fin 512) (b : Fin 4)
    (hb : b.val = t.val / 8) :
    (iblk1 V c 1 t : Vec Ideal S1x2048x512 .bf16) (ix3 (0 : Fin 1) m e)
      = (V c main_v2 : S4x2048x512.Idx → Elt Ideal .bf16) (ix3 b m e) := by
  obtain ⟨-, -, -, e0, e1, e2, -⟩ := blockIdx1 t
  unfold iblk1
  rw [View.read_apply]
  show V c main_v2 _ = V c main_v2 _
  congr 1
  funext a
  apply Fin.ext
  match a with
  | ⟨0, _⟩ => show win1_1.index t (0 : Fin 3) * 1 + 1 * (0 : Fin 1).val = b.val; rw [e0, hb]; omega
  | ⟨1, _⟩ => show win1_1.index t (1 : Fin 3) * 2048 + 1 * m.val = m.val; rw [e1]; omega
  | ⟨2, _⟩ => show win1_1.index t (2 : Fin 3) * 512 + 1 * e.val = e.val; rw [e2]; omega

/-- The first row of [1, 2048] weights is read whole at every point. -/
theorem scoreScale_apply (c : Dev nD) (t : Fin cfg1.N) (k : Fin 2048) :
    (iblk1 V c 2 t : Vec Ideal S1x2048 .f32) (ix2 (0 : Fin 1) k)
      = (V c main_v3 : S1x2048.Idx → Elt Ideal .f32) (ix2 (0 : Fin 1) k) := by
  obtain ⟨-, -, -, -, -, -, e0, e1, -⟩ := blockIdx1 t
  unfold iblk1
  rw [View.read_apply]
  show V c main_v3 _ = V c main_v3 _
  congr 1
  funext a
  apply Fin.ext
  match a with
  | ⟨0, _⟩ => show win1_2.index t (0 : Fin 2) * 1 + 1 * (0 : Fin 1).val = (0 : Fin 1).val; rw [e0]; omega
  | ⟨1, _⟩ => show win1_2.index t (1 : Fin 2) * 2048 + 1 * k.val = k.val; rw [e1]; omega

/-- The second row of [1, 2048] weights is read whole at every point. -/
theorem scoreShift_apply (c : Dev nD) (t : Fin cfg1.N) (k : Fin 2048) :
    (iblk1 V c 3 t : Vec Ideal S1x2048 .f32) (ix2 (0 : Fin 1) k)
      = (V c main_v4 : S1x2048.Idx → Elt Ideal .f32) (ix2 (0 : Fin 1) k) := by
  obtain ⟨-, -, -, -, -, -, -, -, e0, e1, -⟩ := blockIdx1 t
  unfold iblk1
  rw [View.read_apply]
  show V c main_v4 _ = V c main_v4 _
  congr 1
  funext a
  apply Fin.ext
  match a with
  | ⟨0, _⟩ => show win1_3.index t (0 : Fin 2) * 1 + 1 * (0 : Fin 1).val = (0 : Fin 1).val; rw [e0]; omega
  | ⟨1, _⟩ => show win1_3.index t (1 : Fin 2) * 2048 + 1 * k.val = k.val; rw [e1]; omega

/-- The first row of [1, 512] weights is read whole at every point. -/
theorem rowScale_apply (c : Dev nD) (t : Fin cfg1.N) (k : Fin 512) :
    (iblk1 V c 4 t : Vec Ideal S1x512 .f32) (ix2 (0 : Fin 1) k)
      = (V c main_v5 : S1x512.Idx → Elt Ideal .f32) (ix2 (0 : Fin 1) k) := by
  obtain ⟨-, -, -, -, -, -, -, -, -, -, e0, e1, -⟩ := blockIdx1 t
  unfold iblk1
  rw [View.read_apply]
  show V c main_v5 _ = V c main_v5 _
  congr 1
  funext a
  apply Fin.ext
  match a with
  | ⟨0, _⟩ => show win1_4.index t (0 : Fin 2) * 1 + 1 * (0 : Fin 1).val = (0 : Fin 1).val; rw [e0]; omega
  | ⟨1, _⟩ => show win1_4.index t (1 : Fin 2) * 512 + 1 * k.val = k.val; rw [e1]; omega

/-- The second row of [1, 512] weights is read whole at every point. -/
theorem rowShift_apply (c : Dev nD) (t : Fin cfg1.N) (k : Fin 512) :
    (iblk1 V c 5 t : Vec Ideal S1x512 .f32) (ix2 (0 : Fin 1) k)
      = (V c main_v6 : S1x512.Idx → Elt Ideal .f32) (ix2 (0 : Fin 1) k) := by
  obtain ⟨-, -, -, -, -, -, -, -, -, -, -, -, e0, e1, -⟩ := blockIdx1 t
  unfold iblk1
  rw [View.read_apply]
  show V c main_v6 _ = V c main_v6 _
  congr 1
  funext a
  apply Fin.ext
  match a with
  | ⟨0, _⟩ => show win1_5.index t (0 : Fin 2) * 1 + 1 * (0 : Fin 1).val = (0 : Fin 1).val; rw [e0]; omega
  | ⟨1, _⟩ => show win1_5.index t (1 : Fin 2) * 512 + 1 * k.val = k.val; rw [e1]; omega

/-- The specification at row (b, n), from blocks that are that row, the batch's rows and the four weight rows:
    inner products, their normalisation, the mix and the last normalisation are the same sums term by term. -/
theorem attnNorm_of_blocks (y : Cert.Spec.A3) (ws bs : Fin 2048 → EReal) (wt bt : Fin 512 → EReal)
    (q : Fin 512 → EReal) (kv : Fin 2048 → Fin 512 → EReal) (u0 u1 : Fin 2048 → EReal) (u2 u3 : Fin 512 → EReal)
    (b : Fin 4) (n : Fin 2048) (d : Fin 512)
    (hq : ∀ e, q e = y (ix3 b n e)) (hkv : ∀ m e, kv m e = y (ix3 b m e))
    (h0 : ∀ k, u0 k = ws k) (h1 : ∀ k, u1 k = bs k) (h2 : ∀ k, u2 k = wt k) (h3 : ∀ k, u3 k = bt k) :
    Cert.Spec.lnRow Cert.Spec.c512
        (fun d' : Fin 512 => ∑ m : Fin 2048,
          Cert.Spec.lnRow Cert.Spec.c2048 (fun m' : Fin 2048 => ∑ e : Fin 512, q e * kv m' e) u0 u1 m * kv m d')
        u2 u3 d
      = Cert.Spec.attnNorm y ws bs wt bt (ix3 b n d) := by
  obtain rfl : q = fun e => y (ix3 b n e) := funext hq
  obtain rfl : kv = fun m e => y (ix3 b m e) := funext fun m => funext fun e => hkv m e
  obtain rfl : u0 = ws := funext h0
  obtain rfl : u1 = bs := funext h1
  obtain rfl : u2 = wt := funext h2
  obtain rfl : u3 = bt := funext h3
  rfl

/-- What point `t` writes back is its block of the specification: the stored block's entry (r, d) is the
    normalised mix of row 256·(t % 8) + r of batch t / 8, and that is where the block's entry sits in the array. -/
theorem writeBack1_eq (c : Dev nD) (t : Fin cfg1.N) :
    (dat1 (F := Ideal) V c).flushed 6 t
      = ((cfg1.win 6).blk t).view.read (Elt Ideal)
          (Cert.Spec.attnNorm (V c main_v2) (fun k => V c main_v3 (ix2 (0 : Fin 1) k)) (fun k => V c main_v4 (ix2 (0 : Fin 1) k))
            (fun k => V c main_v5 (ix2 (0 : Fin 1) k)) (fun k => V c main_v6 (ix2 (0 : Fin 1) k))) := by
  show (cfg1.win 6).cut (grid1.coords t) ((dat1 (F := Ideal) V c).after 6 t) = _
  rw [after1_6]
  unfold out1_6
  rw [View.canon_unit_zero zero3]
  simp only [View.ld_unit_zero (S := S1x256x512) zero3, View.ld_unit_zero (S := S1x2048x512) zero3,
    View.ld_unit_zero (S := S1x2048) zero2, View.ld_unit_zero (S := S1x512) zero2]
  funext j
  obtain ⟨r, d, rfl⟩ : ∃ (r : Fin 256) (d : Fin 512), j = ix3 (0 : Fin 1) r d :=
    ⟨j 1, j 2, funext fun a => by
      match a with
      | ⟨0, _⟩ => exact Fin.ext (by have h : (j 0).val < 1 := (j 0).isLt; show (j 0).val = 0; omega)
      | ⟨1, _⟩ => rfl
      | ⟨2, _⟩ => rfl⟩
  have hN : t.val < 32 := lt_of_lt_of_eq t.isLt N_1
  obtain ⟨-, -, -, -, -, -, -, -, -, -, -, -, -, -, o0, o1, o2⟩ := blockIdx1 t
  have hemb : ((cfg1.win 6).blk t).view.emb (ix3 (0 : Fin 1) r d)
      = (ix3 (⟨t.val / 8, by omega⟩ : Fin 4) (⟨256 * (t.val % 8) + r.val, by omega⟩ : Fin 2048) d : S4x2048x512.Idx) := by
    funext a
    apply Fin.ext
    match a with
    | ⟨0, _⟩ => show win1_6.index t (0 : Fin 3) * 1 + 1 * (0 : Fin 1).val = t.val / 8; rw [o0]; omega
    | ⟨1, _⟩ => show win1_6.index t (1 : Fin 3) * 256 + 1 * r.val = 256 * (t.val % 8) + r.val; rw [o1]; omega
    | ⟨2, _⟩ => show win1_6.index t (2 : Fin 3) * 512 + 1 * d.val = d.val; rw [o2]; omega
  refine (pay1_apply (iblk1 V c 0 t) (iblk1 V c 1 t) (iblk1 V c 2 t) (iblk1 V c 3 t) (iblk1 V c 4 t) (iblk1 V c 5 t) r d).trans ?_
  rw [View.read_apply, hemb]
  exact attnNorm_of_blocks (V c main_v2) (fun k => V c main_v3 (ix2 (0 : Fin 1) k)) (fun k => V c main_v4 (ix2 (0 : Fin 1) k))
    (fun k => V c main_v5 (ix2 (0 : Fin 1) k)) (fun k => V c main_v6 (ix2 (0 : Fin 1) k))
    (fun e => (iblk1 V c 0 t : Vec Ideal S1x256x512 .bf16) (ix3 (0 : Fin 1) r e))
    (fun m e => (iblk1 V c 1 t : Vec Ideal S1x2048x512 .bf16) (ix3 (0 : Fin 1) m e))
    (fun k => (iblk1 V c 2 t : Vec Ideal S1x2048 .f32) (ix2 (0 : Fin 1) k))
    (fun k => (iblk1 V c 3 t : Vec Ideal S1x2048 .f32) (ix2 (0 : Fin 1) k))
    (fun k => (iblk1 V c 4 t : Vec Ideal S1x512 .f32) (ix2 (0 : Fin 1) k))
    (fun k => (iblk1 V c 5 t : Vec Ideal S1x512 .f32) (ix2 (0 : Fin 1) k))
    (⟨t.val / 8, by omega⟩ : Fin 4) (⟨256 * (t.val % 8) + r.val, by omega⟩ : Fin 2048) d
    (fun e => queryBlk_apply V c t r e (⟨t.val / 8, by omega⟩ : Fin 4) (⟨256 * (t.val % 8) + r.val, by omega⟩ : Fin 2048) rfl rfl)
    (fun m e => batchBlk_apply V c t m e (⟨t.val / 8, by omega⟩ : Fin 4) rfl)
    (fun k => scoreScale_apply V c t k) (fun k => scoreShift_apply V c t k)
    (fun k => rowScale_apply V c t k) (fun k => rowShift_apply V c t k)

/-- An index of the output array lies in point `t`'s block iff each coordinate is in the block's range on its axis. -/
theorem mem_outBlk1 (t : Fin cfg1.N) (i : S4x2048x512.Idx) :
    i ∈ ((cfg1.win 6).blk t).view.set
      ↔ ∀ a : Fin 3, win1_6.index t a * S1x256x512.size a ≤ (i a).val
          ∧ (i a).val < win1_6.index t a * S1x256x512.size a + S1x256x512.size a := by
  show i ∈ ((View.whole main_v7).slice (win1_6.rect t)).set ↔ _
  rw [View.set_slice_whole, Rect.mem_set_unit]
  exact Iff.rfl

/-- Every row (b, n) of the output array is written back: by the point 8·b + n / 256. -/
theorem outCover1 (i : S4x2048x512.Idx) :
    ∃ t : Fin cfg1.N, (cfg1.win 6).flush t = true ∧ i ∈ ((cfg1.win 6).blk t).view.set := by
  have h0 : (i 0).val < 4 := (i 0).isLt
  have h1 : (i 1).val < 2048 := (i 1).isLt
  have h2 : (i 2).val < 512 := (i 2).isLt
  obtain ⟨t, ht⟩ : ∃ t : Fin cfg1.N, t.val = 8 * (i 0).val + (i 1).val / 256 :=
    ⟨⟨8 * (i 0).val + (i 1).val / 256, by rw [show cfg1.N = 32 from N_1]; omega⟩, rfl⟩
  obtain ⟨-, -, -, -, -, -, -, -, -, -, -, -, -, -, o0, o1, o2⟩ := blockIdx1 t
  refine ⟨t, flush1_6 t, ?_⟩
  rw [mem_outBlk1]
  intro a
  match a with
  | ⟨0, _⟩ =>
    show win1_6.index t (0 : Fin 3) * 1 ≤ (i 0).val ∧ (i 0).val < win1_6.index t (0 : Fin 3) * 1 + 1
    rw [o0, ht]; omega
  | ⟨1, _⟩ =>
    show win1_6.index t (1 : Fin 3) * 256 ≤ (i 1).val ∧ (i 1).val < win1_6.index t (1 : Fin 3) * 256 + 256
    rw [o1, ht]; omega
  | ⟨2, _⟩ =>
    show win1_6.index t (2 : Fin 3) * 512 ≤ (i 2).val ∧ (i 2).val < win1_6.index t (2 : Fin 3) * 512 + 512
    rw [o2]; omega

end Blocks

end Value1

/-- After region 1 its output array holds, row by row, the normalised mix of the batch's rows by the normalised inner
    products of that row with them. -/
theorem final1 (V : (c : Dev nD) → (b : Ref sig .tc) → Buf (Elt Ideal) ((c : Thread nD τ).loc b)) (c : Dev nD) :
    (dat1 (F := Ideal) V c).arrAt 6 cfg1.N
      = Cert.Spec.attnNorm (V c main_v2) (fun k => V c main_v3 (ix2 (0 : Fin 1) k)) (fun k => V c main_v4 (ix2 (0 : Fin 1) k))
          (fun k => V c main_v5 (ix2 (0 : Fin 1) k)) (fun k => V c main_v6 (ix2 (0 : Fin 1) k)) := by
  exact (dat1 (F := Ideal) V c).arrAt_eq_of_cover 6 _ (fun t _ => Value1.writeBack1_eq V c t) Value1.outCover1

end Cert.KernelIdeal.Hand

end
-- ==== Proof.KI.Glue.lean ====
/-
  The result array as one function of the five arguments: what region 1 leaves is the second normalisation of
  what region 0 left, and the weights each region reads are the arguments' rows reshaped by the host.
-/
import proofs.«137821_j2413771620560_1_alg».proof.Proof.KI.Run
import proofs.«137821_j2413771620560_1_alg».proof.Proof.KI.Value0
import proofs.«137821_j2413771620560_1_alg».proof.Proof.KI.Value1
import proofs.«137821_j2413771620560_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

namespace Glue

/-! ## What region 0 finds: the first argument as launched, and the host's reshapes of the second and third -/

/-- The first host stretch writes no argument: region 0 finds the first argument as launched. -/
theorem found0_rows (m : (ℓ : Loc nD τ sig) → Buf (Elt Ideal) ℓ) (c : Dev nD) :
    V1 m c main_arg0 = m ((c.tc : Thread nD τ).loc main_arg0) :=
  (StableHlo.after_of_writes_sub hostOps0 _ hostOps0_writes (by decide)).trans rfl

/-- The row of scales region 0 finds is the second argument, reshaped [512] → [1, 512]. -/
theorem found0_scale (m : (ℓ : Loc nD τ sig) → Buf (Elt Ideal) ℓ) (c : Dev nD) (k : Fin 512) :
    V1 m c main_v0 (ix2 (0 : Fin 1) k) = m ((c.tc : Thread nD τ).loc main_arg1) (ix1 k) := by
  show StableHlo.after hostOps0 (W0 m c) (Proc.devRef .tc main_v0) (ix2 (0 : Fin 1) k) = _
  after_results
  show shapeCast S1x512 (W0 m c (Proc.devRef .tc main_arg1)) shapeCasts_S512_S1x512 (ix2 (0 : Fin 1) k) = _
  rw [shapeCast_a_1a_apply]

/-- The row of shifts region 0 finds is the third argument, reshaped. -/
theorem found0_shift (m : (ℓ : Loc nD τ sig) → Buf (Elt Ideal) ℓ) (c : Dev nD) (k : Fin 512) :
    V1 m c main_v1 (ix2 (0 : Fin 1) k) = m ((c.tc : Thread nD τ).loc main_arg2) (ix1 k) := by
  show StableHlo.after hostOps0 (W0 m c) (Proc.devRef .tc main_v1) (ix2 (0 : Fin 1) k) = _
  after_results
  show shapeCast S1x512 (W0 m c (Proc.devRef .tc main_arg2)) shapeCasts_S512_S1x512 (ix2 (0 : Fin 1) k) = _
  rw [shapeCast_a_1a_apply]

/-! ## What region 1 finds: what region 0 left, and the host's reshapes of the four weight vectors -/

/-- An argument at region 1's entry is the argument as launched: neither host stretch nor region 0 writes it. -/
theorem arg_at_entry1 (m : (ℓ : Loc nD τ sig) → Buf (Elt Ideal) ℓ) (c : Dev nD) (b : Ref sig .tc) (h2 : b ≠ main_v2)
    (h0 : b ∉ hostOps0_W) : W2 m c (Proc.devRef .tc b) = m ((c.tc : Thread nD τ).loc b) :=
  (W2_of_ne m c b h2).trans ((StableHlo.after_of_writes_sub hostOps0 _ hostOps0_writes h0).trans rfl)

/-- The second host stretch does not write region 0's output array: region 1 finds it as region 0 left it. -/
theorem found1_rows (m : (ℓ : Loc nD τ sig) → Buf (Elt Ideal) ℓ) (c : Dev nD) :
    V3 m c main_v2 = (dat0 (F := Ideal) (V1 m) c).arrAt 3 cfg0.N :=
  (StableHlo.after_of_writes_sub hostOps1 _ hostOps1_writes (by decide)).trans (W2_out m c)

/-- The row of scales of the second normalisation is the fourth argument, reshaped [2048] → [1, 2048]. -/
theorem found1_scaleS (m : (ℓ : Loc nD τ sig) → Buf (Elt Ideal) ℓ) (c : Dev nD) (k : Fin 2048) :
    V3 m c main_v3 (ix2 (0 : Fin 1) k) = m ((c.tc : Thread nD τ).loc main_arg3) (ix1 k) := by
  show StableHlo.after hostOps1 (W2 m c) (Proc.devRef .tc main_v3) (ix2 (0 : Fin 1) k) = _
  after_results
  show shapeCast S1x2048 (W2 m c (Proc.devRef .tc main_arg3)) shapeCasts_S2048_S1x2048 (ix2 (0 : Fin 1) k) = _
  rw [shapeCast_a_1a_apply, arg_at_entry1 m c main_arg3 (by decide) (by decide)]

/-- The row of shifts of the second normalisation is the fifth argument, reshaped. -/
theorem found1_shiftS (m : (ℓ : Loc nD τ sig) → Buf (Elt Ideal) ℓ) (c : Dev nD) (k : Fin 2048) :
    V3 m c main_v4 (ix2 (0 : Fin 1) k) = m ((c.tc : Thread nD τ).loc main_arg4) (ix1 k) := by
  show StableHlo.after hostOps1 (W2 m c) (Proc.devRef .tc main_v4) (ix2 (0 : Fin 1) k) = _
  after_results
  show shapeCast S1x2048 (W2 m c (Proc.devRef .tc main_arg4)) shapeCasts_S2048_S1x2048 (ix2 (0 : Fin 1) k) = _
  rw [shapeCast_a_1a_apply, arg_at_entry1 m c main_arg4 (by decide) (by decide)]

/-- The row of scales of the last normalisation is the second argument, reshaped again. -/
theorem found1_scaleT (m : (ℓ : Loc nD τ sig) → Buf (Elt Ideal) ℓ) (c : Dev nD) (k : Fin 512) :
    V3 m c main_v5 (ix2 (0 : Fin 1) k) = m ((c.tc : Thread nD τ).loc main_arg1) (ix1 k) := by
  show StableHlo.after hostOps1 (W2 m c) (Proc.devRef .tc main_v5) (ix2 (0 : Fin 1) k) = _
  after_results
  show shapeCast S1x512 (W2 m c (Proc.devRef .tc main_arg1)) shapeCasts_S512_S1x512 (ix2 (0 : Fin 1) k) = _
  rw [shapeCast_a_1a_apply, arg_at_entry1 m c main_arg1 (by decide) (by decide)]

/-- The row of shifts of the last normalisation is the third argument, reshaped again. -/
theorem found1_shiftT (m : (ℓ : Loc nD τ sig) → Buf (Elt Ideal) ℓ) (c : Dev nD) (k : Fin 512) :
    V3 m c main_v6 (ix2 (0 : Fin 1) k) = m ((c.tc : Thread nD τ).loc main_arg2) (ix1 k) := by
  show StableHlo.after hostOps1 (W2 m c) (Proc.devRef .tc main_v6) (ix2 (0 : Fin 1) k) = _
  after_results
  show shapeCast S1x512 (W2 m c (Proc.devRef .tc main_arg2)) shapeCasts_S512_S1x512 (ix2 (0 : Fin 1) k) = _
  rw [shapeCast_a_1a_apply, arg_at_entry1 m c main_arg2 (by decide) (by decide)]

end Glue

/-- After @main the result array holds the specification's function of the five argument arrays as launched. -/
theorem kernel_value (m : (ℓ : Loc nD τ sig) → Buf (Elt Ideal) ℓ) (c : Dev nD) :
    (dat1 (F := Ideal) (V3 m) c).arrAt 6 cfg1.N
      = Cert.Spec.G (m ((c.tc : Thread nD τ).loc main_arg0))
          (fun k => m ((c.tc : Thread nD τ).loc main_arg1) (ix1 k)) (fun k => m ((c.tc : Thread nD τ).loc main_arg2) (ix1 k))
          (fun k => m ((c.tc : Thread nD τ).loc main_arg3) (ix1 k)) (fun k => m ((c.tc : Thread nD τ).loc main_arg4) (ix1 k)) := by
  -- region 1 normalises the mixes of the rows it finds, which are the rows region 0 normalised; the weights each
  -- region finds are the arguments' vectors
  rw [final1 (V3 m) c, Glue.found1_rows m c, final0 (V1 m) c, Glue.found0_rows m c,
    funext (Glue.found0_scale m c), funext (Glue.found0_shift m c), funext (Glue.found1_scaleS m c),
    funext (Glue.found1_shiftS m c), funext (Glue.found1_scaleT m c), funext (Glue.found1_shiftT m c)]
  rfl

end Cert.KernelIdeal.Hand

end
-- ==== Proof.Ref.Term.lean ====
import proofs.«137821_j2413771620560_1_alg».proof.Proof.Gen.ReferenceIdeal.Run
import proofs.«137821_j2413771620560_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx

/-- The reference's result buffer after its run, as the composed term of the contents `V0` at launch. -/
def refTerm (V0 : Valuation τ sig (Elt Ideal)) : (Proc.devRef .tc main_v73 : DevRef τ sig).ty.Contents (Elt Ideal) :=
  addf (mulf (mulf (subf (res_main_v49 V0) (broadcastInDim S4x2048x512 ![0, 1, 2] bcast_S4x2048x1_S4x2048x512_0_1_2 (res_main_v53 V0))) (broadcastInDim S4x2048x512 ![0, 1, 2] bcast_S4x2048x1_S4x2048x512_0_1_2 (Host.rsqrt (addf (Host.divf (broadcastInDim S4x2048x1 ![0, 1] bcast_S4x2048_S4x2048x1_0_1 (Host.reduceAdd (mulf (res_main_v55 V0) (res_main_v55 V0)) (constant S_ .f32 0x00000000#32) reducesTo_S4x2048x512_S4x2048_d2 h_S_)) (broadcastInDim S4x2048x1 ![] bcast_S_S4x2048x1 (constant S_ .f32 0x44000000#32))) (broadcastInDim S4x2048x1 ![] bcast_S_S4x2048x1 (constant S_ .f32 0x3727C5AC#32)))))) (broadcastInDim S4x2048x512 ![0, 1, 2] bcast_S1x1x512_S4x2048x512_0_1_2 (broadcastInDim S1x1x512 ![2] bcast_S512_S1x1x512_2 (V0 (Proc.devRef .tc main_arg1))))) (broadcastInDim S4x2048x512 ![0, 1, 2] bcast_S1x1x512_S4x2048x512_0_1_2 (broadcastInDim S1x1x512 ![2] bcast_S512_S1x1x512_2 (V0 (Proc.devRef .tc main_arg2))))

end Cert.ReferenceIdeal.RefValue

end
-- ==== Proof.Ref.Dots.lean ====
/-
  The reference's two batched products read at an index: each is a plain sum over the contracted axis.
-/
import proofs.«137821_j2413771620560_1_alg».proof.Proof.Ref.Term

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx

/-! ## The inner-product record: where each operand is read, axis by axis

Axis 0 of both operands is the batch axis and follows the output's axis 0. The left operand's axis 1 follows the
output's axis 1, the right operand's axis 1 the output's axis 2. Axis 2 of both operands is the contracted one and
follows the one coordinate of the contraction index. -/

theorem lhs_dot_S4x2048x512_S4x2048x512_S4x2048x2048_2_2_1_1_0_0_0 (j : S4x2048x2048.Idx) (k : dot_S4x2048x512_S4x2048x512_S4x2048x2048_2_2_1_1_0_0.contr.Idx) :
    (dot_S4x2048x512_S4x2048x512_S4x2048x2048_2_2_1_1_0_0.lhsIdx j k 0).val = (j 0).val := by
  simp [DotDims.lhsIdx, dot_S4x2048x512_S4x2048x512_S4x2048x2048_2_2_1_1_0_0]; rfl

theorem lhs_dot_S4x2048x512_S4x2048x512_S4x2048x2048_2_2_1_1_0_0_1 (j : S4x2048x2048.Idx) (k : dot_S4x2048x512_S4x2048x512_S4x2048x2048_2_2_1_1_0_0.contr.Idx) :
    (dot_S4x2048x512_S4x2048x512_S4x2048x2048_2_2_1_1_0_0.lhsIdx j k 1).val = (j 1).val := by
  simp [DotDims.lhsIdx, dot_S4x2048x512_S4x2048x512_S4x2048x2048_2_2_1_1_0_0]; rfl

theorem lhs_dot_S4x2048x512_S4x2048x512_S4x2048x2048_2_2_1_1_0_0_2 (j : S4x2048x2048.Idx) (k : dot_S4x2048x512_S4x2048x512_S4x2048x2048_2_2_1_1_0_0.contr.Idx) :
    (dot_S4x2048x512_S4x2048x512_S4x2048x2048_2_2_1_1_0_0.lhsIdx j k 2).val = (k ⟨0, by decide⟩).val :=
  DotDims.lhsIdx_val_of_single _ rfl j k

theorem rhs_dot_S4x2048x512_S4x2048x512_S4x2048x2048_2_2_1_1_0_0_0 (j : S4x2048x2048.Idx) (k : dot_S4x2048x512_S4x2048x512_S4x2048x2048_2_2_1_1_0_0.contr.Idx) :
    (dot_S4x2048x512_S4x2048x512_S4x2048x2048_2_2_1_1_0_0.rhsIdx j k 0).val = (j 0).val := by
  simp [DotDims.rhsIdx, dot_S4x2048x512_S4x2048x512_S4x2048x2048_2_2_1_1_0_0]; rfl

theorem rhs_dot_S4x2048x512_S4x2048x512_S4x2048x2048_2_2_1_1_0_0_1 (j : S4x2048x2048.Idx) (k : dot_S4x2048x512_S4x2048x512_S4x2048x2048_2_2_1_1_0_0.contr.Idx) :
    (dot_S4x2048x512_S4x2048x512_S4x2048x2048_2_2_1_1_0_0.rhsIdx j k 1).val = (j 2).val := by
  simp [DotDims.rhsIdx, dot_S4x2048x512_S4x2048x512_S4x2048x2048_2_2_1_1_0_0]; rfl

theorem rhs_dot_S4x2048x512_S4x2048x512_S4x2048x2048_2_2_1_1_0_0_2 (j : S4x2048x2048.Idx) (k : dot_S4x2048x512_S4x2048x512_S4x2048x2048_2_2_1_1_0_0.contr.Idx) :
    (dot_S4x2048x512_S4x2048x512_S4x2048x2048_2_2_1_1_0_0.rhsIdx j k 2).val = (k ⟨0, by decide⟩).val :=
  DotDims.rhsIdx_val_of_single _ rfl j k

/-- The inner products of the rows of one batch: contracted over the last axis of both operands. -/
theorem score_apply (l r : FVec Ideal S4x2048x512 .f32) (b : Fin 4) (n m : Fin 2048) :
    Host.dotGeneral (F := Ideal) dot_S4x2048x512_S4x2048x512_S4x2048x2048_2_2_1_1_0_0 none l r (ix3 b n m)
      = ∑ d : Fin 512, (l (ix3 b n d) : EReal) * (r (ix3 b m d) : EReal) := by
  simp only [Host.dotGeneral]
  -- the product at an index is the sum over the contraction index; that index set is its one coordinate's range
  rw [Ideal.dotGeneral_apply,
    ← Equiv.sum_comp (contrEquiv1 dot_S4x2048x512_S4x2048x512_S4x2048x2048_2_2_1_1_0_0 512 rfl rfl).symm]
  refine Finset.sum_congr rfl fun d _ => ?_
  have hk := contrEquiv1_symm_val dot_S4x2048x512_S4x2048x512_S4x2048x2048_2_2_1_1_0_0 512 rfl rfl d
  -- the left operand is read at (b, n, d) …
  have hl : dot_S4x2048x512_S4x2048x512_S4x2048x2048_2_2_1_1_0_0.lhsIdx (ix3 b n m)
      ((contrEquiv1 dot_S4x2048x512_S4x2048x512_S4x2048x2048_2_2_1_1_0_0 512 rfl rfl).symm d) = ix3 b n d := by
    funext a; apply Fin.ext
    match a with
    | ⟨0, _⟩ => exact lhs_dot_S4x2048x512_S4x2048x512_S4x2048x2048_2_2_1_1_0_0_0 _ _
    | ⟨1, _⟩ => exact lhs_dot_S4x2048x512_S4x2048x512_S4x2048x2048_2_2_1_1_0_0_1 _ _
    | ⟨2, _⟩ => exact (lhs_dot_S4x2048x512_S4x2048x512_S4x2048x2048_2_2_1_1_0_0_2 _ _).trans hk
  -- … and the right operand at (b, m, d)
  have hr : dot_S4x2048x512_S4x2048x512_S4x2048x2048_2_2_1_1_0_0.rhsIdx (ix3 b n m)
      ((contrEquiv1 dot_S4x2048x512_S4x2048x512_S4x2048x2048_2_2_1_1_0_0 512 rfl rfl).symm d) = ix3 b m d := by
    funext a; apply Fin.ext
    match a with
    | ⟨0, _⟩ => exact rhs_dot_S4x2048x512_S4x2048x512_S4x2048x2048_2_2_1_1_0_0_0 _ _
    | ⟨1, _⟩ => exact rhs_dot_S4x2048x512_S4x2048x512_S4x2048x2048_2_2_1_1_0_0_1 _ _
    | ⟨2, _⟩ => exact (rhs_dot_S4x2048x512_S4x2048x512_S4x2048x2048_2_2_1_1_0_0_2 _ _).trans hk
  rw [hl, hr]

/-! ## The mixing record: where each operand is read, axis by axis

Axis 0 of both operands is again the batch axis. The left operand's axis 1 follows the output's axis 1 and its
axis 2 is contracted; the right operand's axis 1 is contracted and its axis 2 follows the output's axis 2. -/

theorem lhs_dot_S4x2048x2048_S4x2048x512_S4x2048x512_2_1_1_2_0_0_0 (j : S4x2048x512.Idx) (k : dot_S4x2048x2048_S4x2048x512_S4x2048x512_2_1_1_2_0_0.contr.Idx) :
    (dot_S4x2048x2048_S4x2048x512_S4x2048x512_2_1_1_2_0_0.lhsIdx j k 0).val = (j 0).val := by
  simp [DotDims.lhsIdx, dot_S4x2048x2048_S4x2048x512_S4x2048x512_2_1_1_2_0_0]; rfl

theorem lhs_dot_S4x2048x2048_S4x2048x512_S4x2048x512_2_1_1_2_0_0_1 (j : S4x2048x512.Idx) (k : dot_S4x2048x2048_S4x2048x512_S4x2048x512_2_1_1_2_0_0.contr.Idx) :
    (dot_S4x2048x2048_S4x2048x512_S4x2048x512_2_1_1_2_0_0.lhsIdx j k 1).val = (j 1).val := by
  simp [DotDims.lhsIdx, dot_S4x2048x2048_S4x2048x512_S4x2048x512_2_1_1_2_0_0]; rfl

theorem lhs_dot_S4x2048x2048_S4x2048x512_S4x2048x512_2_1_1_2_0_0_2 (j : S4x2048x512.Idx) (k : dot_S4x2048x2048_S4x2048x512_S4x2048x512_2_1_1_2_0_0.contr.Idx) :
    (dot_S4x2048x2048_S4x2048x512_S4x2048x512_2_1_1_2_0_0.lhsIdx j k 2).val = (k ⟨0, by decide⟩).val :=
  DotDims.lhsIdx_val_of_single _ rfl j k

theorem rhs_dot_S4x2048x2048_S4x2048x512_S4x2048x512_2_1_1_2_0_0_0 (j : S4x2048x512.Idx) (k : dot_S4x2048x2048_S4x2048x512_S4x2048x512_2_1_1_2_0_0.contr.Idx) :
    (dot_S4x2048x2048_S4x2048x512_S4x2048x512_2_1_1_2_0_0.rhsIdx j k 0).val = (j 0).val := by
  simp [DotDims.rhsIdx, dot_S4x2048x2048_S4x2048x512_S4x2048x512_2_1_1_2_0_0]; rfl

theorem rhs_dot_S4x2048x2048_S4x2048x512_S4x2048x512_2_1_1_2_0_0_1 (j : S4x2048x512.Idx) (k : dot_S4x2048x2048_S4x2048x512_S4x2048x512_2_1_1_2_0_0.contr.Idx) :
    (dot_S4x2048x2048_S4x2048x512_S4x2048x512_2_1_1_2_0_0.rhsIdx j k 1).val = (k ⟨0, by decide⟩).val :=
  DotDims.rhsIdx_val_of_single _ rfl j k

theorem rhs_dot_S4x2048x2048_S4x2048x512_S4x2048x512_2_1_1_2_0_0_2 (j : S4x2048x512.Idx) (k : dot_S4x2048x2048_S4x2048x512_S4x2048x512_2_1_1_2_0_0.contr.Idx) :
    (dot_S4x2048x2048_S4x2048x512_S4x2048x512_2_1_1_2_0_0.rhsIdx j k 2).val = (j 2).val := by
  simp [DotDims.rhsIdx, dot_S4x2048x2048_S4x2048x512_S4x2048x512_2_1_1_2_0_0]; rfl

/-- The rows of one batch mixed by a [2048, 2048] matrix: contracted over the matrix's last axis and the rows' index. -/
theorem mix_apply (l : FVec Ideal S4x2048x2048 .f32) (r : FVec Ideal S4x2048x512 .f32) (b : Fin 4) (n : Fin 2048) (d : Fin 512) :
    Host.dotGeneral (F := Ideal) dot_S4x2048x2048_S4x2048x512_S4x2048x512_2_1_1_2_0_0 none l r (ix3 b n d)
      = ∑ m : Fin 2048, (l (ix3 b n m) : EReal) * (r (ix3 b m d) : EReal) := by
  simp only [Host.dotGeneral]
  rw [Ideal.dotGeneral_apply,
    ← Equiv.sum_comp (contrEquiv1 dot_S4x2048x2048_S4x2048x512_S4x2048x512_2_1_1_2_0_0 2048 rfl rfl).symm]
  refine Finset.sum_congr rfl fun m _ => ?_
  have hk := contrEquiv1_symm_val dot_S4x2048x2048_S4x2048x512_S4x2048x512_2_1_1_2_0_0 2048 rfl rfl m
  -- the matrix is read at (b, n, m) …
  have hl : dot_S4x2048x2048_S4x2048x512_S4x2048x512_2_1_1_2_0_0.lhsIdx (ix3 b n d)
      ((contrEquiv1 dot_S4x2048x2048_S4x2048x512_S4x2048x512_2_1_1_2_0_0 2048 rfl rfl).symm m) = ix3 b n m := by
    funext a; apply Fin.ext
    match a with
    | ⟨0, _⟩ => exact lhs_dot_S4x2048x2048_S4x2048x512_S4x2048x512_2_1_1_2_0_0_0 _ _
    | ⟨1, _⟩ => exact lhs_dot_S4x2048x2048_S4x2048x512_S4x2048x512_2_1_1_2_0_0_1 _ _
    | ⟨2, _⟩ => exact (lhs_dot_S4x2048x2048_S4x2048x512_S4x2048x512_2_1_1_2_0_0_2 _ _).trans hk
  -- … and the rows at (b, m, d)
  have hr : dot_S4x2048x2048_S4x2048x512_S4x2048x512_2_1_1_2_0_0.rhsIdx (ix3 b n d)
      ((contrEquiv1 dot_S4x2048x2048_S4x2048x512_S4x2048x512_2_1_1_2_0_0 2048 rfl rfl).symm m) = ix3 b m d := by
    funext a; apply Fin.ext
    match a with
    | ⟨0, _⟩ => exact rhs_dot_S4x2048x2048_S4x2048x512_S4x2048x512_2_1_1_2_0_0_0 _ _
    | ⟨1, _⟩ => exact (rhs_dot_S4x2048x2048_S4x2048x512_S4x2048x512_2_1_1_2_0_0_1 _ _).trans hk
    | ⟨2, _⟩ => exact rhs_dot_S4x2048x2048_S4x2048x512_S4x2048x512_2_1_1_2_0_0_2 _ _
  rw [hl, hr]

end Cert.ReferenceIdeal.RefValue

end
-- ==== Proof.Ref.Result.lean ====
/-
  The reference's composed term is the specification's function of the five arguments.
-/
import proofs.«137821_j2413771620560_1_alg».proof.Proof.Ref.Dots
import Idealize.ShloMosaic.Lib.IdealHost

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo Idealize.ShloMosaic.ValueIdx

/-- An array of 4 × 2048 rows of length `K`. -/
abbrev Rows (K : ℕ) : Shape := ⟨3, ![4, 2048, K]⟩

section Reads

variable {K : ℕ}

/-- The sum of a row from the zero word is the sum of its entries. -/
theorem rowSum_apply (hred : (Rows K).ReducesTo [2] S4x2048) (hred' : (Rows K).Reduces [2] S4x2048)
    (x : FVec Ideal (Rows K) .f32) (b : Fin 4) (n : Fin 2048) :
    Host.reduceAdd (F := Ideal) x (constant S_ .f32 0x00000000#32) hred h_S_ (ix2 b n) = ∑ k : Fin K, x (ix3 b n k) := by
  rw [hostReduceAdd_apply, Ideal.hostReduceAdd_single hred hred', constant_apply, Ideal.ofBits_zero_f32, zero_add]
  refine Finset.sum_congr rfl fun k _ => congrArg x (funext fun a => ?_)
  match a with
  | ⟨0, _⟩ => rfl
  | ⟨1, _⟩ => rfl
  | ⟨2, _⟩ => rfl

/-- A per-row value kept as a column of length one reads the row's value. -/
theorem keep_apply (v : FVec Ideal S4x2048 .f32) (b : Fin 4) (n : Fin 2048) :
    broadcastInDim S4x2048x1 ![0, 1] bcast_S4x2048_S4x2048x1_0_1 v (ix3 b n (0 : Fin 1)) = v (ix2 b n) :=
  broadcastInDim_apply ![0, 1] bcast_S4x2048_S4x2048x1_0_1 v (ix3 b n (0 : Fin 1)) (ix2 b n) (fun a => by
    match a with
    | ⟨0, _⟩ => rfl
    | ⟨1, _⟩ => rfl)

/-- A column of length one spread along the row reads the column's one entry. -/
theorem spread_apply (hb : S4x2048x1.BroadcastsInDim (Rows K) ![0, 1, 2]) (y : FVec Ideal S4x2048x1 .f32)
    (b : Fin 4) (n : Fin 2048) (j : Fin K) :
    broadcastInDim (Rows K) ![0, 1, 2] hb y (ix3 b n j) = y (ix3 b n (0 : Fin 1)) :=
  broadcastInDim_apply ![0, 1, 2] hb y (ix3 b n j) (ix3 b n (0 : Fin 1)) (fun a => by
    match a with
    | ⟨0, _⟩ => rfl
    | ⟨1, _⟩ => rfl
    | ⟨2, _⟩ => rfl)

/-- A scalar word spread over the columns reads the word. -/
theorem word_apply (c : BitVec 32) (i : S4x2048x1.Idx) :
    broadcastInDim S4x2048x1 ![] bcast_S_S4x2048x1 (constant (F := Ideal) S_ .f32 c) i = Ideal.ofBits .f32 c := by
  rw [broadcastInDim_scalar_apply, constant_apply]

/-- A vector of length `K` spread over every row reads its entry at the row's position. -/
theorem weights_apply (h1 : (⟨1, ![K]⟩ : Shape).BroadcastsInDim ⟨3, ![1, 1, K]⟩ ![2])
    (h2 : (⟨3, ![1, 1, K]⟩ : Shape).BroadcastsInDim (Rows K) ![0, 1, 2]) (w : FVec Ideal ⟨1, ![K]⟩ .f32)
    (b : Fin 4) (n : Fin 2048) (j : Fin K) :
    broadcastInDim (Rows K) ![0, 1, 2] h2 (broadcastInDim ⟨3, ![1, 1, K]⟩ ![2] h1 w) (ix3 b n j) = w (ix1 j) := by
  refine (broadcastInDim_apply ![0, 1, 2] h2 _ (ix3 b n j) (ix3 (0 : Fin 1) (0 : Fin 1) j) (fun a => ?_)).trans ?_
  · match a with
    | ⟨0, _⟩ => rfl
    | ⟨1, _⟩ => rfl
    | ⟨2, _⟩ =>
      show (j : ℕ) = if K = 1 then 0 else (j : ℕ)
      split_ifs with hK
      · have := j.isLt; omega
      · rfl
  · refine broadcastInDim_apply ![2] h1 w (ix3 (0 : Fin 1) (0 : Fin 1) j) (ix1 j) (fun a => ?_)
    match a with
    | ⟨0, _⟩ =>
      show (j : ℕ) = if K = 1 then 0 else (j : ℕ)
      split_ifs with hK
      · have := j.isLt; omega
      · rfl

end Reads

section Norm

variable {K : ℕ}

/-- The host's normalisation of every row of a [4, 2048, K] array, as the reference spells it: the row's sum over the
    count word `cnt`, the entries about that mean, the mean of their squares plus the small word, its inverse root,
    then the scale and the shift. -/
def hostNorm (cnt : BitVec 32) (hred : (Rows K).ReducesTo [2] S4x2048)
    (hb : S4x2048x1.BroadcastsInDim (Rows K) ![0, 1, 2])
    (h1 : (⟨1, ![K]⟩ : Shape).BroadcastsInDim ⟨3, ![1, 1, K]⟩ ![2])
    (h2 : (⟨3, ![1, 1, K]⟩ : Shape).BroadcastsInDim (Rows K) ![0, 1, 2])
    (x : FVec Ideal (Rows K) .f32) (w b' : FVec Ideal ⟨1, ![K]⟩ .f32) : FVec Ideal (Rows K) .f32 :=
  addf (mulf (mulf (subf x (broadcastInDim (Rows K) ![0, 1, 2] hb (Host.divf (broadcastInDim S4x2048x1 ![0, 1] bcast_S4x2048_S4x2048x1_0_1 (Host.reduceAdd x (constant S_ .f32 0x00000000#32) hred h_S_)) (broadcastInDim S4x2048x1 ![] bcast_S_S4x2048x1 (constant S_ .f32 cnt))))) (broadcastInDim (Rows K) ![0, 1, 2] hb (Host.rsqrt (addf (Host.divf (broadcastInDim S4x2048x1 ![0, 1] bcast_S4x2048_S4x2048x1_0_1 (Host.reduceAdd (mulf (subf x (broadcastInDim (Rows K) ![0, 1, 2] hb (Host.divf (broadcastInDim S4x2048x1 ![0, 1] bcast_S4x2048_S4x2048x1_0_1 (Host.reduceAdd x (constant S_ .f32 0x00000000#32) hred h_S_)) (broadcastInDim S4x2048x1 ![] bcast_S_S4x2048x1 (constant S_ .f32 cnt))))) (subf x (broadcastInDim (Rows K) ![0, 1, 2] hb (Host.divf (broadcastInDim S4x2048x1 ![0, 1] bcast_S4x2048_S4x2048x1_0_1 (Host.reduceAdd x (constant S_ .f32 0x00000000#32) hred h_S_)) (broadcastInDim S4x2048x1 ![] bcast_S_S4x2048x1 (constant S_ .f32 cnt)))))) (constant S_ .f32 0x00000000#32) hred h_S_)) (broadcastInDim S4x2048x1 ![] bcast_S_S4x2048x1 (constant S_ .f32 cnt))) (broadcastInDim S4x2048x1 ![] bcast_S_S4x2048x1 (constant S_ .f32 0x3727C5AC#32)))))) (broadcastInDim (Rows K) ![0, 1, 2] h2 (broadcastInDim ⟨3, ![1, 1, K]⟩ ![2] h1 w))) (broadcastInDim (Rows K) ![0, 1, 2] h2 (broadcastInDim ⟨3, ![1, 1, K]⟩ ![2] h1 b'))

/-- Read at an index, the host's normalisation is the specification's normalised row. -/
theorem hostNorm_apply (cnt : BitVec 32) (hred : (Rows K).ReducesTo [2] S4x2048) (hred' : (Rows K).Reduces [2] S4x2048)
    (hb : S4x2048x1.BroadcastsInDim (Rows K) ![0, 1, 2])
    (h1 : (⟨1, ![K]⟩ : Shape).BroadcastsInDim ⟨3, ![1, 1, K]⟩ ![2])
    (h2 : (⟨3, ![1, 1, K]⟩ : Shape).BroadcastsInDim (Rows K) ![0, 1, 2])
    (x : FVec Ideal (Rows K) .f32) (w b' : FVec Ideal ⟨1, ![K]⟩ .f32) (b : Fin 4) (n : Fin 2048) (j : Fin K) :
    hostNorm cnt hred hb h1 h2 x w b' (ix3 b n j)
      = Cert.Spec.lnRow (Ideal.ofBits .f32 cnt) (fun k => x (ix3 b n k)) (fun k => w (ix1 k)) (fun k => b' (ix1 k)) j := by
  simp only [hostNorm, addf_apply, mulf_apply, subf_apply, hostDivf_apply, Host.rsqrt, Ideal.hostUnary_rsqrt_def,
    spread_apply hb, weights_apply h1 h2]
  rw [word_apply, word_apply, keep_apply, keep_apply, rowSum_apply hred hred', rowSum_apply hred hred']
  simp only [mulf_apply, subf_apply, hostDivf_apply, spread_apply hb]
  rw [word_apply, keep_apply, rowSum_apply hred hred']
  rfl

end Norm

section Compose

/-- The last axis of a [4, 2048, 512] array is summed out into [4, 2048]. -/
theorem reduces512 : S4x2048x512.Reduces [2] S4x2048 := by decide

/-- The last axis of a [4, 2048, 2048] array is summed out into [4, 2048]. -/
theorem reduces2048 : S4x2048x2048.Reduces [2] S4x2048 := by decide

variable (V0 : Valuation τ sig (Elt Ideal))

/-- The reference's first stage is the host's normalisation of the rows of the first argument. -/
theorem v23_def : res_main_v23 V0 = hostNorm (K := 512) 0x44000000#32 reducesTo_S4x2048x512_S4x2048_d2
    bcast_S4x2048x1_S4x2048x512_0_1_2 bcast_S512_S1x1x512_2 bcast_S1x1x512_S4x2048x512_0_1_2
    (V0 (Proc.devRef .tc main_arg0)) (V0 (Proc.devRef .tc main_arg1)) (V0 (Proc.devRef .tc main_arg2)) := rfl

/-- The first stage is the specification's normalised rows. -/
theorem v23_eq : res_main_v23 V0 = Cert.Spec.tokenNorm (V0 (Proc.devRef .tc main_arg0))
    (fun k => V0 (Proc.devRef .tc main_arg1) (ix1 k)) (fun k => V0 (Proc.devRef .tc main_arg2) (ix1 k)) := by
  funext i
  obtain ⟨b, n, d, rfl⟩ : ∃ b n d, i = ix3 b n d := ⟨i 0, i 1, i 2, eq_ix3 i⟩
  rw [v23_def]
  exact hostNorm_apply _ _ reduces512 _ _ _ _ _ _ b n d

/-- The second stage at an index: the inner product of two normalised rows of one batch. -/
theorem v24_apply (b : Fin 4) (n m : Fin 2048) :
    res_main_v24 V0 (ix3 b n m) = Cert.Spec.scoreRow (Cert.Spec.tokenNorm (V0 (Proc.devRef .tc main_arg0))
      (fun k => V0 (Proc.devRef .tc main_arg1) (ix1 k)) (fun k => V0 (Proc.devRef .tc main_arg2) (ix1 k))) b n m := by
  refine (score_apply (res_main_v23 V0) (res_main_v23 V0) b n m).trans ?_
  rw [v23_eq]
  rfl

/-- The fourth stage is the product of the host's normalisation of the second stage's rows with the first stage. -/
theorem v49_def : res_main_v49 V0 = Host.dotGeneral (F := Ideal) (φ₂ := .f32) dot_S4x2048x2048_S4x2048x512_S4x2048x512_2_1_1_2_0_0 none
    (hostNorm (K := 2048) 0x45000000#32 reducesTo_S4x2048x2048_S4x2048_d2
      bcast_S4x2048x1_S4x2048x2048_0_1_2 bcast_S2048_S1x1x2048_2 bcast_S1x1x2048_S4x2048x2048_0_1_2
      (res_main_v24 V0) (V0 (Proc.devRef .tc main_arg3)) (V0 (Proc.devRef .tc main_arg4)))
    (res_main_v23 V0) := rfl

/-- The fourth stage at an index: the normalised rows of the batch mixed by the normalised inner products. -/
theorem v49_apply (b : Fin 4) (n : Fin 2048) (d : Fin 512) :
    res_main_v49 V0 (ix3 b n d) = Cert.Spec.mixRow (Cert.Spec.tokenNorm (V0 (Proc.devRef .tc main_arg0))
      (fun k => V0 (Proc.devRef .tc main_arg1) (ix1 k)) (fun k => V0 (Proc.devRef .tc main_arg2) (ix1 k)))
      (fun k => V0 (Proc.devRef .tc main_arg3) (ix1 k)) (fun k => V0 (Proc.devRef .tc main_arg4) (ix1 k)) b n d := by
  rw [v49_def, mix_apply]
  show (_ : EReal) = _
  refine Finset.sum_congr rfl fun m _ => ?_
  rw [hostNorm_apply _ _ reduces2048, v23_eq,
    show (fun k => res_main_v24 V0 (ix3 b n k)) = Cert.Spec.scoreRow (Cert.Spec.tokenNorm (V0 (Proc.devRef .tc main_arg0))
      (fun k => V0 (Proc.devRef .tc main_arg1) (ix1 k)) (fun k => V0 (Proc.devRef .tc main_arg2) (ix1 k))) b n
      from funext fun k => v24_apply V0 b n k]
  rfl

/-- The reference's result is the host's normalisation of the fourth stage's rows. -/
theorem refTerm_def : refTerm V0 = hostNorm (K := 512) 0x44000000#32 reducesTo_S4x2048x512_S4x2048_d2
    bcast_S4x2048x1_S4x2048x512_0_1_2 bcast_S512_S1x1x512_2 bcast_S1x1x512_S4x2048x512_0_1_2
    (res_main_v49 V0) (V0 (Proc.devRef .tc main_arg1)) (V0 (Proc.devRef .tc main_arg2)) := rfl

end Compose

/-- Index by index the reference's term is the specification: three row normalisations and two batched products. -/
theorem result_eq (V0 : Valuation τ sig (Elt Ideal)) :
    refTerm V0 = Cert.Spec.G (V0 (Proc.devRef .tc main_arg0))
      (fun k => V0 (Proc.devRef .tc main_arg1) (ix1 k)) (fun k => V0 (Proc.devRef .tc main_arg2) (ix1 k))
      (fun k => V0 (Proc.devRef .tc main_arg3) (ix1 k)) (fun k => V0 (Proc.devRef .tc main_arg4) (ix1 k)) := by
  funext i
  obtain ⟨b, n, d, rfl⟩ : ∃ b n d, i = ix3 b n d := ⟨i 0, i 1, i 2, eq_ix3 i⟩
  rw [refTerm_def, hostNorm_apply _ _ reduces512,
    show (fun k => res_main_v49 V0 (ix3 b n k)) = Cert.Spec.mixRow (Cert.Spec.tokenNorm (V0 (Proc.devRef .tc main_arg0))
      (fun k => V0 (Proc.devRef .tc main_arg1) (ix1 k)) (fun k => V0 (Proc.devRef .tc main_arg2) (ix1 k)))
      (fun k => V0 (Proc.devRef .tc main_arg3) (ix1 k)) (fun k => V0 (Proc.devRef .tc main_arg4) (ix1 k)) b n
      from funext fun k => v49_apply V0 b n k]
  rfl

end Cert.ReferenceIdeal.RefValue

end
-- ==== Proof.lean ====
/-
  The certificate.  The kernel is two pipelined regions: the first normalises every row of x (mean, variance,
  reciprocal square root, scale and shift); the second, for each block of 256 query rows, takes their inner products
  with all 2048 rows of the batch, normalises each row of products, mixes the batch's rows by them and normalises
  the result.  The reference does the same with whole-array operations.  Read at the exact instance the two are one
  function of the five arguments, index by index: a change of float format is the identity, a block product into a
  zero accumulator is the plain sum of products, and a lane sum is the plain sum; no law beyond the reindexing of
  finite sums joins the two sides, so the finiteness precondition is never opened.

  Both programs run to the end whatever the inputs: each region's body loads whole blocks and stores one whole block,
  and the host lines only reshape the weight vectors.
-/
import proofs.«137821_j2413771620560_1_alg».proof.Defs
import proofs.«137821_j2413771620560_1_alg».proof.Proof.Gen.Kernel
import proofs.«137821_j2413771620560_1_alg».proof.Proof.Gen.KernelIdeal
import proofs.«137821_j2413771620560_1_alg».proof.Proof.Gen.ReferenceIdeal
import proofs.«137821_j2413771620560_1_alg».proof.Proof.Gen.Pre_finite_inputs
import proofs.«137821_j2413771620560_1_alg».proof.Proof.Gen.ReferenceIdeal.Run
import proofs.«137821_j2413771620560_1_alg».proof.Proof.K.Run
import proofs.«137821_j2413771620560_1_alg».proof.Proof.KI.Glue
import proofs.«137821_j2413771620560_1_alg».proof.Proof.Ref.Result
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as launched. -/
theorem frame_k : Cert.frame_Kernel := fun m ρ _ =>
  (θ_run Cert.Kernel.defs _ _).mono (fun _ h c => (h c).2) (Cert.Kernel.Hand.run_main (F := Bits) m ρ)

/-- So does the kernel read at the exact instance. -/
theorem frame_ki : Cert.frame_KernelIdeal := fun m ρ _ =>
  (θ_run Cert.KernelIdeal.defs _ _).mono (fun _ h c => (h c).2) (Cert.KernelIdeal.Hand.run_main (F := Ideal) m ρ)

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the specification's function of the arguments in their result arrays. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (fun k => m ((c.tc : Thread Cert.KernelIdeal.nD Cert.KernelIdeal.τ).loc Cert.KernelIdeal.main_arg1) (ix1 k))
      (fun k => m ((c.tc : Thread Cert.KernelIdeal.nD Cert.KernelIdeal.τ).loc Cert.KernelIdeal.main_arg2) (ix1 k))
      (fun k => m ((c.tc : Thread Cert.KernelIdeal.nD Cert.KernelIdeal.τ).loc Cert.KernelIdeal.main_arg3) (ix1 k))
      (fun k => m ((c.tc : Thread Cert.KernelIdeal.nD Cert.KernelIdeal.τ).loc Cert.KernelIdeal.main_arg4) (ix1 k)), ?_, ?_⟩
  · exact (θ_run Cert.KernelIdeal.defs _ _).mono
      (fun _ h c => ⟨(h c).1.trans (Cert.KernelIdeal.Hand.kernel_value m c), (h c).2⟩)
      (Cert.KernelIdeal.Hand.run_main (F := Ideal) m ρ)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.result_eq (StableHlo.launchContents m' c)).trans ?_
    show Cert.Spec.G (m' ((c.tc : Thread Cert.ReferenceIdeal.nD Cert.ReferenceIdeal.τ).loc Cert.ReferenceIdeal.main_arg0))
        (fun k => m' ((c.tc : Thread Cert.ReferenceIdeal.nD Cert.ReferenceIdeal.τ).loc Cert.ReferenceIdeal.main_arg1) (ix1 k)) (fun k => m' ((c.tc : Thread Cert.ReferenceIdeal.nD Cert.ReferenceIdeal.τ).loc Cert.ReferenceIdeal.main_arg2) (ix1 k))
        (fun k => m' ((c.tc : Thread Cert.ReferenceIdeal.nD Cert.ReferenceIdeal.τ).loc Cert.ReferenceIdeal.main_arg3) (ix1 k)) (fun k => m' ((c.tc : Thread Cert.ReferenceIdeal.nD Cert.ReferenceIdeal.τ).loc Cert.ReferenceIdeal.main_arg4) (ix1 k)) = _
    rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
